-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S8x16x4096 : Shape := ⟨3, ![8, 16, 4096]⟩
abbrev S8x4096x16 : Shape := ⟨3, ![8, 4096, 16]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S8x16x4096 : S_.BroadcastsInDim S8x16x4096 (![] : Fin 0 → Fin S8x16x4096.rank)
  reducesTo_S8x16x4096_S_d0_1_2 : S8x16x4096.ReducesTo [0, 1, 2] S_
  bcast_S_S8x4096x16 : S_.BroadcastsInDim S8x4096x16 (![] : Fin 0 → Fin S8x4096x16.rank)
  reducesTo_S8x4096x16_S_d0_1_2 : S8x4096x16.ReducesTo [0, 1, 2] S_

variable [Facts]

def fn_part1 {F : FTy → Type} [FloatOps F] (main_v13 : IVec S_ 1) (main_v16 : IVec S8x4096x16 1) : IVec S_ 1 :=
  let main_c_5 : IVec S_ 1 := constantI S_ 1 1#1
  let main_v17 : IVec S_ 1 := (fun x v => Host.reduce IntOp.andi x v reducesTo_S8x4096x16_S_d0_1_2 h_S_) main_v16 main_c_5
  let main_v18 : IVec S_ 1 := andi main_v13 main_v17
  main_v18

def fn {F : FTy → Type} [FloatOps F] (main_arg0 : FVec F S16384x4096 .f32) (main_arg1 : FVec F S4096x4096 .f32) (main_arg2 : FVec F S8x16x4096 .f32) (main_arg3 : FVec F S8x4096x16 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S8x16x4096 .f32 := Host.absf main_arg2
  let main_cst_2 : FVec F S_ .f32 := constant S_ .f32 0x7F800000#32
  let main_v10 : FVec F S8x16x4096 .f32 := broadcastInDim S8x16x4096 ![] bcast_S_S8x16x4096 main_cst_2
  let main_v11 : IVec S8x16x4096 1 := cmpf .olt main_v9 main_v10
  let main_c_3 : IVec S_ 1 := constantI S_ 1 1#1
  let main_v12 : IVec S_ 1 := (fun x v => Host.reduce IntOp.andi x v reducesTo_S8x16x4096_S_d0_1_2 h_S_) main_v11 main_c_3
  let main_v13 : IVec S_ 1 := andi main_v8 main_v12
  let main_v14 : FVec F S8x4096x16 .f32 := Host.absf main_arg3
  let main_cst_4 : FVec F S_ .f32 := constant S_ .f32 0x7F800000#32
  let main_v15 : FVec F S8x4096x16 .f32 := broadcastInDim S8x4096x16 ![] bcast_S_S8x4096x16 main_cst_4
  let main_v16 : IVec S8x4096x16 1 := cmpf .olt main_v14 main_v15
  fn_part1 (F := F) main_v13 main_v16
-- ==== Kernel.lean ====
abbrev S16384x4096 : Shape := ⟨2, ![16384, 4096]⟩
abbrev S4096x4096 : Shape := ⟨2, ![4096, 4096]⟩
abbrev S8x16x4096 : Shape := ⟨3, ![8, 16, 4096]⟩
abbrev S8x4096x16 : Shape := ⟨3, ![8, 4096, 16]⟩
abbrev S1x16x4096 : Shape := ⟨3, ![1, 16, 4096]⟩
abbrev S16x4096 : Shape := ⟨2, ![16, 4096]⟩
abbrev S1x4096x16 : Shape := ⟨3, ![1, 4096, 16]⟩
abbrev S4096x16 : Shape := ⟨2, ![4096, 16]⟩
abbrev S1024x1024 : Shape := ⟨2, ![1024, 1024]⟩
abbrev S1024x16 : Shape := ⟨2, ![1024, 16]⟩
abbrev S16x1024 : Shape := ⟨2, ![16, 1024]⟩
abbrev S2048x1024 : Shape := ⟨2, ![2048, 1024]⟩
abbrev S2048x2048 : Shape := ⟨2, ![2048, 2048]⟩

abbrev nBuf : Space → Nat
  | .hbm => 10
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S8x16x4096, .f32⟩
  | .hbm, ⟨3, _⟩ => ⟨S8x4096x16, .f32⟩
  | .hbm, ⟨4, _⟩ => ⟨S1x16x4096, .f32⟩
  | .hbm, ⟨5, _⟩ => ⟨S16x4096, .f32⟩
  | .hbm, ⟨6, _⟩ => ⟨S1x4096x16, .f32⟩
  | .hbm, ⟨7, _⟩ => ⟨S4096x16, .f32⟩
  | .hbm, ⟨8, _⟩ => ⟨S4096x4096, .bf16⟩
  | .hbm, ⟨9, _⟩ => ⟨S16384x4096, .f32⟩
  | .local _ .vmem, ⟨0, _⟩ => ⟨S1024x1024, .f32⟩
  | .local _ .vmem, ⟨1, _⟩ => ⟨S1024x1024, .f32⟩
  | .local _ .vmem, ⟨2, _⟩ => ⟨S1024x16, .f32⟩
  | .local _ .vmem, ⟨3, _⟩ => ⟨S1024x16, .f32⟩
  | .local _ .vmem, ⟨4, _⟩ => ⟨S16x1024, .f32⟩
  | .local _ .vmem, ⟨5, _⟩ => ⟨S16x1024, .f32⟩
  | .local _ .vmem, ⟨6, _⟩ => ⟨S1024x1024, .bf16⟩
  | .local _ .vmem, ⟨7, _⟩ => ⟨S1024x1024, .bf16⟩
  | .local _ .vmem, ⟨8, _⟩ => ⟨S2048x1024, .f32⟩
  | .local _ .vmem, ⟨9, _⟩ => ⟨S2048x1024, .f32⟩
  | .local _ .vmem, ⟨10, _⟩ => ⟨S2048x1024, .bf16⟩
  | .local _ .vmem, ⟨11, _⟩ => ⟨S2048x1024, .bf16⟩
  | .local _ .vmem, ⟨12, _⟩ => ⟨S2048x2048, .f32⟩
  | .local _ .vmem, ⟨13, _⟩ => ⟨S2048x2048, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 2, 4], ![false, false, false]⟩

def k1_cond1 (i : grid1.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg2 : BitVec 32 := BitVec.ofNat 32 (i 2).val
  let c0_i32_1 : BitVec 32 := 0#32
  let v3 : BitVec 1 := Scalar.cmpi .ne arg2 c0_i32_1
  let v4 : BitVec 32 := Scalar.extui v3
  let c0_i32_2 : BitVec 32 := 0#32
  let v5 : BitVec 1 := Scalar.cmpi .ne v4 c0_i32_2
  v5

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  slices_S8x16x4096_S1x16x4096_0_0_0 : S8x16x4096.Slices ![0, 0, 0] S1x16x4096
  shapeCasts_S1x16x4096_S16x4096 : S1x16x4096.ShapeCasts S16x4096
  slices_S8x4096x16_S1x4096x16_0_0_0 : S8x4096x16.Slices ![0, 0, 0] S1x4096x16
  shapeCasts_S1x4096x16_S4096x16 : S1x4096x16.ShapeCasts S4096x16
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S1024x16_S16x1024_S1024x1024_1_0_0_1_n_n_wf : DotDims.WF S1024x16 S16x1024 S1024x1024 [1] [0] [0] [1] [] []
  dot_S2048x1024_S2048x1024_S2048x2048_1_1_0_0_n_n_wf : DotDims.WF S2048x1024 S2048x1024 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S4096x16.size a
  hwx0_1 : ∀ i : grid0.Coords, EltTy.bits .f32 = 32 ∨ (Rect.block (s := S4096x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x4096.size a
  hwx1_0 : ∀ i : grid1.Coords, EltTy.bits .f32 = 32 ∨ (Rect.block (s := S16384x4096) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S4096x4096.size a
  hwx1_1 : ∀ i : grid1.Coords, EltTy.bits .bf16 = 32 ∨ (Rect.block (s := S4096x4096) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S16384x4096.size a
  hwx1_2 : ∀ i : grid1.Coords, EltTy.bits .f32 = 32 ∨ (Rect.block (s := S16384x4096) S2048x2048.size (cc1_transform_2 i) (hinb1_2 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S2048x1024_S2048x1024_S2048x2048_1_1_0_0_n_n : DotDims S2048x1024 S2048x1024 S2048x2048 where
  lhsContracting := [1]
  rhsContracting := [1]
  lhsNonContracting := [0]
  rhsNonContracting := [0]
  lhsBatch := []
  rhsBatch := []
  wf := dot_S2048x1024_S2048x1024_S2048x2048_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v4) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S2048x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond1 i == 1#1) && !(k1_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x4096 : Shape := ⟨2, ![4096, 4096]⟩
abbrev S8x16x4096 : Shape := ⟨3, ![8, 16, 4096]⟩
abbrev S8x4096x16 : Shape := ⟨3, ![8, 4096, 16]⟩
abbrev S1x16x4096 : Shape := ⟨3, ![1, 16, 4096]⟩
abbrev S16x4096 : Shape := ⟨2, ![16, 4096]⟩
abbrev S1x4096x16 : Shape := ⟨3, ![1, 4096, 16]⟩
abbrev S4096x16 : Shape := ⟨2, ![4096, 16]⟩
abbrev S16384x16 : Shape := ⟨2, ![16384, 16]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S8x16x4096, .f32⟩
  | .hbm, ⟨3, _⟩ => ⟨S8x4096x16, .f32⟩
  | .hbm, ⟨4, _⟩ => ⟨S4096x4096, .f32⟩
  | .hbm, ⟨5, _⟩ => ⟨S16384x4096, .f32⟩
  | .hbm, ⟨6, _⟩ => ⟨S1x16x4096, .f32⟩
  | .hbm, ⟨7, _⟩ => ⟨S16x4096, .f32⟩
  | .hbm, ⟨8, _⟩ => ⟨S1x4096x16, .f32⟩
  | .hbm, ⟨9, _⟩ => ⟨S4096x16, .f32⟩
  | .hbm, ⟨10, _⟩ => ⟨S4096x16, .f32⟩
  | .hbm, ⟨11, _⟩ => ⟨S16384x16, .f32⟩
  | .hbm, ⟨12, _⟩ => ⟨S16x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  transposes_S4096x4096_S4096x4096_1_0 : S4096x4096.Transposes [1, 0] S4096x4096
  slices_S8x16x4096_S1x16x4096_0_0_0 : S8x16x4096.Slices ![0, 0, 0] S1x16x4096
  shapeCasts_S1x16x4096_S16x4096 : S1x16x4096.ShapeCasts S16x4096
  slices_S8x4096x16_S1x4096x16_0_0_0 : S8x4096x16.Slices ![0, 0, 0] S1x4096x16
  shapeCasts_S1x4096x16_S4096x16 : S1x4096x16.ShapeCasts S4096x16
  transposes_S16x4096_S4096x16_1_0 : S16x4096.Transposes [1, 0] S4096x16
  transposes_S4096x16_S16x4096_1_0 : S4096x16.Transposes [1, 0] S16x4096
  bcast_S_S16384x4096 : S_.BroadcastsInDim S16384x4096 (![] : Fin 0 → Fin S16384x4096.rank)
  dot_S16384x4096_S4096x4096_S16384x4096_1_0_0_1_n_n_wf : DotDims.WF S16384x4096 S4096x4096 S16384x4096 [1] [0] [0] [1] [] []
  dot_S16384x4096_S4096x16_S16384x16_1_0_0_1_n_n_wf : DotDims.WF S16384x4096 S4096x16 S16384x16 [1] [0] [0] [1] [] []
  dot_S16384x16_S16x4096_S16384x4096_1_0_0_1_n_n_wf : DotDims.WF S16384x16 S16x4096 S16384x4096 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf
def dot_S16384x4096_S4096x16_S16384x16_1_0_0_1_n_n : DotDims S16384x4096 S4096x16 S16384x16 where
  lhsContracting := [1]
  rhsContracting := [0]
  lhsNonContracting := [0]
  rhsNonContracting := [1]
  lhsBatch := []
  rhsBatch := []
  wf := dot_S16384x4096_S4096x16_S16384x16_1_0_0_1_n_n_wf
def dot_S16384x16_S16x4096_S16384x4096_1_0_0_1_n_n : DotDims S16384x16 S16x4096 S16384x4096 where
  lhsContracting := [1]
  rhsContracting := [0]
  lhsNonContracting := [0]
  rhsNonContracting := [1]
  lhsBatch := []
  rhsBatch := []
  wf := dot_S16384x16_S16x4096_S16384x4096_1_0_0_1_n_n_wf

class Facts : Prop extends Facts₀ where

variable [Facts]
-- ==== Proof.KFold.lean ====
/-
  The first kernel region: W_eff = W + 1 · (B0 · A0), stored as bf16, one 1024 × 1024 block per grid point (j, k) of a
  4 × 4 grid. At point (j, k) the body reads block (j, k) of W, the row block j of B0 (1024 × 16) and the column block k
  of A0 (16 × 1024), and stores the whole output block. Nothing is carried between points: what the output's staging
  buffer holds after the body is one function of the three input blocks. Stated for any float instance, from the
  contents `V` the region is entered with.
-/
import proofs.«155099_g11295763988856_week1_w4_63_23_alg».proof.Proof.Gen.Kernel.Launch
import proofs.«155099_g11295763988856_week1_w4_63_23_alg».proof.Proof.Gen.Kernel.Skeleton
import proofs.«155099_g11295763988856_week1_w4_63_23_alg».proof.Proof.Gen.Kernel.Points
import Idealize.ShloMosaic.Lib.Pipeline.FrameBody
import Idealize.ShloMosaic.Lib.Ring
import Idealize.ShloMosaic.Lib.Tactic

-- membership in a rectangle of 1024 or 2048 rows recurses once per coordinate of the long axes
set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The blocks the body reads -/

/-- Window `w`'s block at point `t` of the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block of the entry array at every point, fetched there or not (the block
    of B0 moves only with the first grid coordinate, so it is fetched at every fourth point and found in place at the
    others), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

/-- The whole block of each operand: the rectangles the body's loads and its one store go through. -/
abbrev rW : Rect S1024x1024 := Rect.unit (s := S1024x1024) ![0, 0] S1024x1024.size inb_S1024x1024_S1024x1024_0_0
abbrev rB : Rect S1024x16 := Rect.unit (s := S1024x16) ![0, 0] S1024x16.size inb_S1024x16_S1024x16_0_0
abbrev rA : Rect S16x1024 := Rect.unit (s := S16x1024) ![0, 0] S16x1024.size inb_S16x1024_S16x1024_0_0

/-- The output block after the body, from the blocks of W, B0 and A0: the one store, of the body's value
    `bf16 (w + 1 · (bf16 b · bf16 a))`, covering the block. -/
def foldOut (w : Vec F S1024x1024 .f32) (b : Vec F S1024x16 .f32) (a : Vec F S16x1024 .f32) : Vec F S1024x1024 .bf16 :=
  View.canon [⟨rW, k0_pay1 (View.ld b rB) (View.ld a rA) (View.ld w rW)⟩]

/-- The one store covers the block. -/
theorem foldCover (p0 : Vec F S1024x1024 .bf16) (y : S1024x1024.Idx) :
    ∃ pc ∈ ([⟨rW, p0⟩] : List (View.Piece (Elt F) S1024x1024 .bf16)), y ∈ pc.1.set :=
  View.cover_of_tiled [⟨rW, p0⟩] S1024x1024.size (by rfl) y

/-! ## The body's run -/

set_option maxHeartbeats 1000000 in
/-- On whole staging buffers, the inputs' holding `w`, `b`, `a` and the output's anything, the body runs to the end
    with the inputs as they were and the output at `foldOut w b a`. -/
theorem sound_fold (c : Dev nD) (E : Set ℕ) (i : grid0.Coords)
    (arg2 : Memref sig .tc .vmem S1024x1024 .f32) (harg2 : arg2.IsWhole) (arg3 : Memref sig .tc .vmem S1024x16 .f32) (harg3 : arg3.IsWhole)
    (arg4 : Memref sig .tc .vmem S16x1024 .f32) (harg4 : arg4.IsWhole) (arg5 : Memref sig .tc .vmem S1024x1024 .bf16) (harg5 : arg5.IsWhole)
    (w : Vec F S1024x1024 .f32) (b : Vec F S1024x16 .f32) (a : Vec F S16x1024 .f32) (K : PUnit → sProp 𝕄) :
    iprop(owns (c : Thread nD τ) arg2 fullShare w ∗ owns (c : Thread nD τ) arg3 fullShare b ∗ owns (c : Thread nD τ) arg4 fullShare a
        ∗ (∃ d, owns (c : Thread nD τ) arg5 fullShare d)
        ∗ (iprop(owns (c : Thread nD τ) arg2 fullShare w ∗ owns (c : Thread nD τ) arg3 fullShare b ∗ owns (c : Thread nD τ) arg4 fullShare a
            ∗ owns (c : Thread nD τ) arg5 fullShare (foldOut w b a)) -∗ K ⟨⟩))
      ⊢ wp frame (wpE (defs₀ (F := F)) Variants.none c none) E (cc0__fold_kernel i arg2 harg2 arg3 harg3 arg4 harg4 arg5 harg5) K := by
  simp only [cc0__fold_kernel_eq_skeleton]; unfold cc0__fold_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (foldCover _)

/-! ## The proof data of the region -/

/-- The region's proof data on core `c`: the arrays as entered; after the body at point `t` each input buffer at its
    block and the output buffer at `foldOut` of the three blocks; the invariant is the rest of the scoped memory and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => foldOut (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = foldOut (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `sound_fold` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_fold c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fold

end
-- ==== Proof.KMm.lean ====
/-
  The second kernel region: out = x · W_effᵀ on an 8 × 2 × 4 grid, the last grid axis running over four 1024-wide
  blocks of the contracted dimension. At point (i, j, k) the body reads block (i, k) of x (2048 × 1024, f32) and block
  (j, k) of W_eff (2048 × 1024, bf16). The 2048 × 2048 output block (i, j) stays in its staging buffer over the four
  points of k and is written back after the last: at k = 0 the body stores the block product, at k ≠ 0 it loads what
  the point before left, adds the block product and stores the sum. So what the output buffer holds after a point is a
  recursion on the point. Stated for any float instance, from the contents `V` the region is entered with.
-/
import proofs.«155099_g11295763988856_week1_w4_63_23_alg».proof.Proof.Gen.Kernel.Launch
import proofs.«155099_g11295763988856_week1_w4_63_23_alg».proof.Proof.Gen.Kernel.Skeleton
import proofs.«155099_g11295763988856_week1_w4_63_23_alg».proof.Proof.Gen.Kernel.Points
import Idealize.ShloMosaic.Lib.Pipeline.FrameBody
import Idealize.ShloMosaic.Lib.Ring
import Idealize.ShloMosaic.Lib.Tactic

-- membership in a rectangle of 1024 or 2048 rows recurses once per coordinate of the long axes
set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The blocks the body reads -/

/-- Window `w`'s block at point `t` of the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of x and the block of W_eff at point `t`, at their literal vector types. -/
abbrev xblk (c : Dev nD) (t : Fin cfg1.N) : Vec F S2048x1024 .f32 := iblk1 V c 0 t
abbrev wblk (c : Dev nD) (t : Fin cfg1.N) : Vec F S2048x1024 .bf16 := iblk1 V c 1 t

/-- An input window's staging buffer holds its block of the entry array at every point, for any proof data over `V`
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two branches, over the grid -/

/-- The first branch (store the block product) is taken exactly where the last grid coordinate is 0: at the points
    divisible by 4. -/
theorem first_iff : ∀ t : Fin cfg1.N, k1_cond1 (grid1.coords t) = 1#1 ↔ t.val % 4 = 0 :=
  (by decide +kernel : ∀ t : Fin grid1.N, k1_cond1 (grid1.coords t) = 1#1 ↔ t.val % 4 = 0)
/-- The second branch (add to what the point before left) is taken at all the other points. -/
theorem next_iff : ∀ t : Fin cfg1.N, k1_cond2 (grid1.coords t) = 1#1 ↔ ¬ t.val % 4 = 0 :=
  (by decide +kernel : ∀ t : Fin grid1.N, k1_cond2 (grid1.coords t) = 1#1 ↔ ¬ t.val % 4 = 0)

/-- One of the two branches stores at every point: the output window is idle nowhere. -/
theorem out_live (i : grid1.Coords) : cfg1.idle 2 i = false := by
  show (!(k1_cond1 i == 1#1) && !(k1_cond2 i == 1#1)) = false
  unfold k1_cond1 k1_cond2
  have h : (i 2).val < 4 := (i 2).isLt
  generalize (i 2).val = n at h
  obtain rfl | rfl | rfl | rfl : n = 0 ∨ n = 1 ∨ n = 2 ∨ n = 3 := by omega
  all_goals decide

/-! ## What the body stores -/

/-- The whole block of each operand: the rectangles the body's loads and stores go through. -/
abbrev rX : Rect S2048x1024 := Rect.unit (s := S2048x1024) ![0, 0] S2048x1024.size inb_S2048x1024_S2048x1024_0_0
abbrev rO : Rect S2048x2048 := Rect.unit (s := S2048x2048) ![0, 0] S2048x2048.size inb_S2048x2048_S2048x2048_0_0

/-- The output block after the body at a point with k = 0: the block product `bf16 x · wᵀ` stored over the block. -/
def mmFirst (x : Vec F S2048x1024 .f32) (w : Vec F S2048x1024 .bf16) : Vec F S2048x2048 .f32 :=
  View.canon [⟨rO, k1_pay1 (View.ld x rX) (View.ld w rX)⟩]

/-- The output block after the body at a point with k ≠ 0, over what the buffer held (`prev`): `prev + bf16 x · wᵀ`. -/
def mmNext (prev : Vec F S2048x2048 .f32) (x : Vec F S2048x1024 .f32) (w : Vec F S2048x1024 .bf16) : Vec F S2048x2048 .f32 :=
  View.canon [⟨rO, k1_pay2 (View.ld prev rO) (View.ld x rX) (View.ld w rX)⟩]

/-- The one store covers the block. -/
theorem mmCover (p0 : Vec F S2048x2048 .f32) (y : S2048x2048.Idx) :
    ∃ pc ∈ ([⟨rO, p0⟩] : List (View.Piece (Elt F) S2048x2048 .f32)), y ∈ pc.1.set :=
  View.cover_of_tiled [⟨rO, p0⟩] S2048x2048.size (by rfl) y

/-! ## The body's run, branch by branch -/

set_option maxHeartbeats 1000000 in
/-- At a point with k = 0, on whole staging buffers, the inputs' holding `x` and `w` and the output's anything, the body
    runs to the end with the inputs as they were and the output at `mmFirst x w`. -/
theorem sound_mm_first (c : Dev nD) (E : Set ℕ) (i : grid1.Coords) (hc1 : k1_cond1 i = 1#1) (hc2 : ¬ k1_cond2 i = 1#1)
    (arg3 : Memref sig .tc .vmem S2048x1024 .f32) (harg3 : arg3.IsWhole) (arg4 : Memref sig .tc .vmem S2048x1024 .bf16) (harg4 : arg4.IsWhole)
    (arg5 : Memref sig .tc .vmem S2048x2048 .f32) (harg5 : arg5.IsWhole)
    (x : Vec F S2048x1024 .f32) (w : Vec F S2048x1024 .bf16) (K : PUnit → sProp 𝕄) :
    iprop(owns (c : Thread nD τ) arg3 fullShare x ∗ owns (c : Thread nD τ) arg4 fullShare w
        ∗ (∃ d, owns (c : Thread nD τ) arg5 fullShare d)
        ∗ (iprop(owns (c : Thread nD τ) arg3 fullShare x ∗ owns (c : Thread nD τ) arg4 fullShare w
            ∗ owns (c : Thread nD τ) arg5 fullShare (mmFirst x w)) -∗ K ⟨⟩))
      ⊢ wp frame (wpE (defs₀ (F := F)) Variants.none c none) E (cc1__matmul_kernel i arg3 harg3 arg4 harg4 arg5 harg5) K := by
  simp only [cc1__matmul_kernel_eq_skeleton]; unfold cc1__matmul_kernel_skel
  unfold owns
  iintro ⟨⟨%f3, %hf3, H3⟩, ⟨%f4, %hf4, H4⟩, ⟨%d5, %f5, -, H5⟩, Hk⟩
  subst hf3; subst hf4
  sl_exec (disch := first | exact hc1 | exact hc2)
  sl_step
  iapply Hk
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (mmCover _)

set_option maxHeartbeats 1000000 in
/-- At a point with k ≠ 0, the output's buffer holding `prev`, the body runs to the end with the inputs as they were and
    the output at `mmNext prev x w`. -/
theorem sound_mm_next (c : Dev nD) (E : Set ℕ) (i : grid1.Coords) (hc1 : ¬ k1_cond1 i = 1#1) (hc2 : k1_cond2 i = 1#1)
    (arg3 : Memref sig .tc .vmem S2048x1024 .f32) (harg3 : arg3.IsWhole) (arg4 : Memref sig .tc .vmem S2048x1024 .bf16) (harg4 : arg4.IsWhole)
    (arg5 : Memref sig .tc .vmem S2048x2048 .f32) (harg5 : arg5.IsWhole)
    (prev : Vec F S2048x2048 .f32) (x : Vec F S2048x1024 .f32) (w : Vec F S2048x1024 .bf16) (K : PUnit → sProp 𝕄) :
    iprop(owns (c : Thread nD τ) arg3 fullShare x ∗ owns (c : Thread nD τ) arg4 fullShare w
        ∗ owns (c : Thread nD τ) arg5 fullShare prev
        ∗ (iprop(owns (c : Thread nD τ) arg3 fullShare x ∗ owns (c : Thread nD τ) arg4 fullShare w
            ∗ owns (c : Thread nD τ) arg5 fullShare (mmNext prev x w)) -∗ K ⟨⟩))
      ⊢ wp frame (wpE (defs₀ (F := F)) Variants.none c none) E (cc1__matmul_kernel i arg3 harg3 arg4 harg4 arg5 harg5) K := by
  simp only [cc1__matmul_kernel_eq_skeleton]; unfold cc1__matmul_kernel_skel
  unfold owns
  iintro ⟨⟨%f3, %hf3, H3⟩, ⟨%f4, %hf4, H4⟩, ⟨%f5, %hf5, H5⟩, Hk⟩
  subst hf3; subst hf4; subst hf5
  sl_exec (disch := first | exact hc1 | exact hc2)
  sl_step
  iapply Hk
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (mmCover _)

/-! ## What the output buffer holds after each point -/

/-- The accumulation: after point `n` the output's staging buffer holds the block product of the point's blocks when
    k = 0 (n divisible by 4), and otherwise that product added to what point `n - 1` left. -/
def accAt (c : Dev nD) : (n : ℕ) → n < cfg1.N → Vec F S2048x2048 .f32
  | 0, hn => mmFirst (xblk V c ⟨0, hn⟩) (wblk V c ⟨0, hn⟩)
  | n + 1, hn =>
    if (n + 1) % 4 = 0 then mmFirst (xblk V c ⟨n + 1, hn⟩) (wblk V c ⟨n + 1, hn⟩)
    else mmNext (accAt c n (Nat.lt_of_succ_lt hn)) (xblk V c ⟨n + 1, hn⟩) (wblk V c ⟨n + 1, hn⟩)

theorem accAt_first (c : Dev nD) (t : Fin cfg1.N) (h0 : t.val % 4 = 0) :
    accAt V c t.val t.isLt = mmFirst (xblk V c t) (wblk V c t) := by
  obtain ⟨n, hn⟩ := t
  cases n with
  | zero => rfl
  | succ n => exact (if_pos h0).trans rfl

theorem accAt_next (c : Dev nD) (t : Fin cfg1.N) (h0 : ¬ t.val % 4 = 0) :
    accAt V c t.val t.isLt
      = mmNext (accAt V c (t.val - 1) (Nat.lt_of_le_of_lt (Nat.sub_le _ _) t.isLt)) (xblk V c t) (wblk V c t) := by
  obtain ⟨n, hn⟩ := t
  cases n with
  | zero => exact absurd (Nat.zero_mod _) h0
  | succ n => exact (if_neg h0).trans rfl

/-! ## The proof data of the region -/

/-- The region's proof data on core `c`: the arrays as entered; after the body at point `t` each input buffer at its
    block and the output buffer at the accumulation `accAt`; the invariant is the rest of the scoped memory and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a point with k ≠ 0 the output's staging buffer holds what the body left at the point before: the point is not
    the first, the block was not written back in between (that happens only after k = 3), and the window is neither
    idle nor cut. -/
theorem before1_2_next (c : Dev nD) (t : Fin cfg1.N) (h0 : ¬ t.val % 4 = 0) (d) :
    (dat1 V c).before 2 t d = accAt V c (t.val - 1) (Nat.lt_of_le_of_lt (Nat.sub_le _ _) t.isLt) := by
  rw [Dat.before_out_kept _ 2 rfl t (by omega)
    (Bool.eq_false_iff.mpr fun h => by have := (flush1_2 _).mp h; dsimp only at this; omega)
    out_live (fun _ _ => rfl)]
  dsimp only [dat1]

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body at any point: the input buffers hold their blocks; the point's position modulo 4 says which branch runs;
    at k ≠ 0 the output buffer holds what the point before left; the invariant and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 4 = 0
  · rw [accAt_first V c t h0]
    iintro ⟨HΦ, Ho, ⟨%d0, H0⟩, ⟨%d1, H1⟩, ⟨%d2, H2⟩⟩
    iapply (sound_mm_first c Set.univ (grid1.coords t) ((first_iff t).mpr h0) (fun h => (next_iff t).mp h h0)
      _ _ _ _ _ _ (xblk V c t) (wblk V c t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accAt_next V c t h0]
    simp only [before1_2_next V c t h0]
    iintro ⟨HΦ, Ho, ⟨%d0, H0⟩, ⟨%d1, H1⟩, ⟨%d2, H2⟩⟩
    iapply (sound_mm_next c Set.univ (grid1.coords t) (fun h => h0 ((first_iff t).mp h)) ((next_iff t).mpr h0)
      _ _ _ _ _ _ (accAt V c (t.val - 1) (Nat.lt_of_le_of_lt (Nat.sub_le _ _) t.isLt)) (xblk V c t) (wblk V c t) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  -- the output window stores at every point, so the obligation's case "idle here" does not arise
  rw [show cfg1.idle 2 (cfg1.grid.coords t) = false from out_live _]
  exact sound_body1 V c t

end Cert.Kernel.Mm

end
-- ==== Proof.KRun.lean ====
/-
  The whole run of the program: the host stretch that cuts A0 and B0 out of the LoRA stacks, then the fold region, then
  the matmul region. Between two items every unscoped buffer of the core has known contents: the launch memory; then the
  host operations applied to it; then the fold region's arrays at what its write-backs leave (its inputs as entered, W_eff
  at the folded blocks); then the same for the matmul region. Every weakly fair execution from any memory with zero
  counters terminates with every unscoped buffer at the last of these contents; the frame (the four arguments end as
  launched) and the result buffer's contents are read off that. Stated for any float instance.
-/
import proofs.«155099_g11295763988856_week1_w4_63_23_alg».proof.Proof.Gen.Kernel.Launch
import proofs.«155099_g11295763988856_week1_w4_63_23_alg».proof.Proof.Gen.Kernel.Skeleton
import proofs.«155099_g11295763988856_week1_w4_63_23_alg».proof.Proof.Gen.Kernel.Points
import proofs.«155099_g11295763988856_week1_w4_63_23_alg».proof.Proof.Gen.Kernel.Regions
import proofs.«155099_g11295763988856_week1_w4_63_23_alg».proof.Proof.KFold
import proofs.«155099_g11295763988856_week1_w4_63_23_alg».proof.Proof.KMm
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

-- membership in a rectangle of 1024 or 2048 rows recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Fold Cert.Kernel.Mm

variable (m : (ℓ : Loc nD τ sig) → Buf (Elt F) ℓ) (ρ : Dev nD → PrngReg)

/-! ## The buffers' contents between the items -/

/-- At launch, and after the host stretch (the fold region's entry). -/
abbrev At0 : Dev nD → Valuation τ sig (Elt F) := fun c => V0 m c
abbrev At1 : Dev nD → Valuation τ sig (Elt F) := fun c => V1 m c
/-- The same read at the TensorCore's references: what the fold region's proof data take. -/
abbrev In0 : (c : Dev nD) → (b : Ref sig .tc) → Buf (Elt F) ((c : Thread nD τ).loc b) := fun c b => At1 m c b

/-- After the fold region: its arrays at what the pipeline leaves, every other buffer as entered. -/
def At2 (c : Dev nD) : Valuation τ sig (Elt F) :=
  Pipeline.withArrays spec0 c (At1 m c) fun w => (dat0 (In0 m) c).arrAt w cfg0.N
theorem At2_arr (c : Dev nD) (w : Fin cfg0.W) :
    At2 m c (Proc.devRef .tc (Pipeline.arrRef spec0 w)) = (dat0 (In0 m) c).arrAt w cfg0.N := by
  unfold At2; exact Pipeline.withArrays_arr spec0 launch0.win.arr_inj c _ _ w
theorem At2_of_ne (c : Dev nD) (b : Ref sig .tc) (hb : ∀ w, Pipeline.arrRef spec0 w ≠ b) :
    At2 m c (Proc.devRef .tc b) = At1 m c (Proc.devRef .tc b) := by
  unfold At2; exact Pipeline.withArrays_of_ne spec0 c _ _ b hb
/-- The same read at the TensorCore's references: what the matmul region's proof data take. -/
abbrev In1 : (c : Dev nD) → (b : Ref sig .tc) → Buf (Elt F) ((c : Thread nD τ).loc b) := fun c b => At2 m c b
theorem hF0 (c : Dev nD) (w : Fin cfg0.W) : (dat0 (In0 m) c).arrAt w cfg0.N = In1 m c (Pipeline.arrRef spec0 w) :=
  (At2_arr m c w).symm
theorem hrest0 (c : Dev nD) : ∀ b, b ∉ Finset.univ.image (Pipeline.arrRef spec0) → In1 m c b = In0 m c b :=
  fun b hb => At2_of_ne m c b fun w e => hb (Finset.mem_image.mpr ⟨w, Finset.mem_univ _, e⟩)

/-- After the matmul region: its arrays at what the pipeline leaves, every other buffer as entered. -/
def At3 (c : Dev nD) : Valuation τ sig (Elt F) :=
  Pipeline.withArrays spec1 c (At2 m c) fun w => (dat1 (In1 m) c).arrAt w cfg1.N
theorem At3_arr (c : Dev nD) (w : Fin cfg1.W) :
    At3 m c (Proc.devRef .tc (Pipeline.arrRef spec1 w)) = (dat1 (In1 m) c).arrAt w cfg1.N := by
  unfold At3; exact Pipeline.withArrays_arr spec1 launch1.win.arr_inj c _ _ w
theorem At3_of_ne (c : Dev nD) (b : Ref sig .tc) (hb : ∀ w, Pipeline.arrRef spec1 w ≠ b) :
    At3 m c (Proc.devRef .tc b) = At2 m c (Proc.devRef .tc b) := by
  unfold At3; exact Pipeline.withArrays_of_ne spec1 c _ _ b hb
abbrev Out1 : (c : Dev nD) → (b : Ref sig .tc) → Buf (Elt F) ((c : Thread nD τ).loc b) := fun c b => At3 m c b
theorem hF1 (c : Dev nD) (w : Fin cfg1.W) : (dat1 (In1 m) c).arrAt w cfg1.N = Out1 m c (Pipeline.arrRef spec1 w) :=
  (At3_arr m c w).symm
theorem hrest1 (c : Dev nD) : ∀ b, b ∉ Finset.univ.image (Pipeline.arrRef spec1) → Out1 m c b = In1 m c b :=
  fun b hb => At3_of_ne m c b fun w e => hb (Finset.mem_image.mpr ⟨w, Finset.mem_univ _, e⟩)

/-! ### The arguments end as launched: the host stretch writes only its own four results, and a region changes only
    its output array -/

/-- x is the matmul region's first input and is read by nothing before it. -/
theorem At3_main_arg0 (c : Dev nD) : At3 m c (Proc.devRef .tc main_arg0) = m ((c : Thread nD τ).loc main_arg0) :=
  calc At3 m c (Proc.devRef .tc main_arg0)
    _ = At2 m c (Proc.devRef .tc main_arg0) := (At3_arr m c 0).trans (((dat1 (In1 m) c).arrAt_in 0 rfl _).trans (A_eq1 (In1 m) c 0))
    _ = At1 m c (Proc.devRef .tc main_arg0) := At2_of_ne m c main_arg0 (by decide)
    _ = m ((c : Thread nD τ).loc main_arg0) := (V1_of m c main_arg0 (by decide)).trans rfl
/-- W is the fold region's first input. -/
theorem At3_main_arg1 (c : Dev nD) : At3 m c (Proc.devRef .tc main_arg1) = m ((c : Thread nD τ).loc main_arg1) :=
  calc At3 m c (Proc.devRef .tc main_arg1)
    _ = At2 m c (Proc.devRef .tc main_arg1) := At3_of_ne m c main_arg1 (by decide)
    _ = At1 m c (Proc.devRef .tc main_arg1) := (At2_arr m c 0).trans (((dat0 (In0 m) c).arrAt_in 0 rfl _).trans (A_eq0 (In0 m) c 0))
    _ = m ((c : Thread nD τ).loc main_arg1) := (V1_of m c main_arg1 (by decide)).trans rfl
/-- The two LoRA stacks are read by the host stretch only. -/
theorem At3_main_arg2 (c : Dev nD) : At3 m c (Proc.devRef .tc main_arg2) = m ((c : Thread nD τ).loc main_arg2) :=
  calc At3 m c (Proc.devRef .tc main_arg2)
    _ = At2 m c (Proc.devRef .tc main_arg2) := At3_of_ne m c main_arg2 (by decide)
    _ = At1 m c (Proc.devRef .tc main_arg2) := At2_of_ne m c main_arg2 (by decide)
    _ = m ((c : Thread nD τ).loc main_arg2) := (V1_of m c main_arg2 (by decide)).trans rfl
theorem At3_main_arg3 (c : Dev nD) : At3 m c (Proc.devRef .tc main_arg3) = m ((c : Thread nD τ).loc main_arg3) :=
  calc At3 m c (Proc.devRef .tc main_arg3)
    _ = At2 m c (Proc.devRef .tc main_arg3) := At3_of_ne m c main_arg3 (by decide)
    _ = At1 m c (Proc.devRef .tc main_arg3) := At2_of_ne m c main_arg3 (by decide)
    _ = m ((c : Thread nD τ).loc main_arg3) := (V1_of m c main_arg3 (by decide)).trans rfl

/-- The result buffer ends at what the matmul region's write-backs leave in its output array. -/
theorem At3_main_v0 (c : Dev nD) : At3 m c (Proc.devRef .tc main_v0) = (dat1 (In1 m) c).arrAt 2 cfg1.N :=
  At3_arr m c 2

/-! ### What the matmul region is entered with -/

/-- x as launched. -/
theorem In1_main_arg0 (c : Dev nD) : In1 m c main_arg0 = m ((c : Thread nD τ).loc main_arg0) :=
  (At2_of_ne m c main_arg0 (by decide)).trans ((V1_of m c main_arg0 (by decide)).trans rfl)
/-- W_eff at what the fold region's write-backs leave. -/
theorem In1_main_call0_v4 (c : Dev nD) : In1 m c main_call0_v4 = (dat0 (In0 m) c).arrAt 3 cfg0.N :=
  At2_arr m c 3
/-- W as launched, at the fold region's entry. -/
theorem In0_main_arg1 (c : Dev nD) : In0 m c main_arg1 = m ((c : Thread nD τ).loc main_arg1) :=
  (V1_of m c main_arg1 (by decide)).trans rfl

/-! ## The proof data family and what rides beside the buffers -/

/-- Every pipeline's proof data, each at its region's entry contents. -/
def pdat : (p : Fin 2) → (c : Dev nD) → Dat τ (Elt F) Unit ℕ (UR sig nD τ) ℕ (Pipeline.pin (pcfgs (F := F)) adm p) c
  | ⟨0, _⟩ => fun c => dat0 (In0 m) c
  | ⟨1, _⟩ => fun c => dat1 (In1 m) c
abbrev 𝒱₀ : Variants := Variants.none
/-- No core owes another anything: no level is assigned. -/
abbrev Lz : GSem nD τ sig → Finset Unit := fun _ => ∅
abbrev lvz : GSem nD τ sig → Unit → ℕ := fun _ _ => 0
/-- Beside the buffers, through every item: the core's generator register at some state, and the core owing nothing. -/
abbrev Rest (c : Dev nD) : sProp 𝕄 := iprop((∃ r, prngReg c r) ∗ ∃ W, owes (c : Thread nD τ) (0 : CellTallies nD τ sig Unit) W)

/-- The host stretch as an item: from the launch contents, `Rest` riding along. -/
abbrev hostItem : Pipeline.HostSeg (Name := ℕ) (U := UR sig nD τ) (pcfgs (F := F)) defs₀ 𝒱₀ Lz lvz :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (At0 m) Rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator register. -/
abbrev Tend (c : Dev nD) : sProp 𝕄 := iprop(StableHlo.held (c : Thread nD τ) (Pipeline.ucRefs τ sig) (At3 m c) ∗ ∃ r, prngReg c r)

/-! ## The regions as items -/

set_option backward.isDefEq.respectTransparency.types false in
/-- The fold region: entered with every unscoped buffer at `At1`, left at `At2`. Its arrays are split out of the
    unscoped buffers and put back at the exit contents; the generator register goes into the invariant and comes out;
    nothing is owed; the kernel has no semaphore of its own. -/
def reg0 : Pipeline.RegionSeg (pcfgs (F := F)) adm (pdat m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (In0 m) c).loose
  hwaits := Pipeline.hwaits_of_owed_zero _ _ _ _ Lz lvz 0 fun _ _ => rfl
  pre c := iprop(StableHlo.held (c : Thread nD τ) (Pipeline.ucRefs τ sig) (At1 m c) ∗ Rest c)
  post c := iprop(StableHlo.held (c : Thread nD τ) (Pipeline.ucRefs τ sig) (At2 m c) ∗ Rest c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) adm (pdat m) launch0.win launch0.arr_whole c
      ((pdat m 0 c).share_full fun _ => rfl) (In0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdat m) ((pdat m 0 c).share_full fun _ => rfl)
      (In0 m c) (In1 m c) ((pdat m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region: entered with every unscoped buffer at `At2`, left at `At3` (what is read at the end). -/
def reg1 : Pipeline.RegionSeg (pcfgs (F := F)) adm (pdat m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (In1 m) c).loose
  hwaits := Pipeline.hwaits_of_owed_zero _ _ _ _ Lz lvz 1 fun _ _ => rfl
  pre c := iprop(StableHlo.held (c : Thread nD τ) (Pipeline.ucRefs τ sig) (At2 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none]
    have hsplit := Pipeline.arrays_of_unscopedBufs (p := 1) (pcfgs (F := F)) adm (pdat m) launch1.win launch1.arr_whole c
      ((pdat m 1 c).share_full fun _ => rfl) (In1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdat m) ((pdat m 1 c).share_full fun _ => rfl)
      (In1 m c) (Out1 m c) ((pdat m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The three items in order. -/
abbrev items : List (Pipeline.Seg (pcfgs (F := F)) adm (pdat m) () defs₀ 𝒱₀ Lz lvz) :=
  [ .host (hostItem m), .region (reg0 m), .region (reg1 m) ]
/-- The program is the run of its items. -/
theorem main_items (c : Dev nD) : main (F := F) c = Pipeline.Seg.run (items m) := (main_chain c).trans (by chain_rfl)

set_option backward.isDefEq.respectTransparency.types false in
/-- From any memory with zero counters every weakly fair execution of the program on the TensorCores terminates,
    nothing faulting, and every final state has every unscoped buffer at the last contents `At3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = At3 m c b) :=
  Pipeline.θ_run_regions_kit (pcfgs (F := F)) adm (pdat m) () cellOf_inj emb₁ defs₀ 𝒱₀ Lz lvz m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (At0 m c) ∗ Rest c)) (Tₙ := Tend m)
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (At0 m c)
        from Pipeline.unscopedBufs_held c (At0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = At3 m c b)
    (hfin := fun c s' => by
      iintro ⟨⟨Hh, -⟩, HSI⟩
      unfold StableHlo.held
      imodintro
      iapply (pointsTo_read_all (Pipeline.ucRefs τ sig) (fun b => (((c : Thread nD τ)).1, b)) (At3 m c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (At3_main_arg0 m c),
     (h c _ (mem_uc main_arg1 (by decide))).trans (At3_main_arg1 m c),
     (h c _ (mem_uc main_arg2 (by decide))).trans (At3_main_arg2 m c),
     (h c _ (mem_uc main_arg3 (by decide))).trans (At3_main_arg3 m c)⟩) (run_all m ρ)

/-- The run with the result named: the result buffer ends at what the matmul region's write-backs leave in its output
    array, and the arguments end as launched. -/
theorem run_value : θ_run defs (onTc (τ := τ) (main (F := F))) ⟨m, fun _ => 0, ρ⟩ (fun r => ∀ c : Dev nD,
      r.2.mem ((c.tc : Thread nD τ).loc main_v0) = (dat1 (In1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v0 (by decide))).trans (At3_main_v0 m c),
     (h c _ (mem_uc main_arg0 (by decide))).trans (At3_main_arg0 m c),
     (h c _ (mem_uc main_arg1 (by decide))).trans (At3_main_arg1 m c),
     (h c _ (mem_uc main_arg2 (by decide))).trans (At3_main_arg2 m c),
     (h c _ (mem_uc main_arg3 (by decide))).trans (At3_main_arg3 m c)⟩) (run_all m ρ)

end Cert.Kernel.Run

end
-- ==== Proof.Fold.lean ====
/-
  The first kernel region: W_eff = W + 1 · (B0 · A0), stored as bf16, one 1024 × 1024 block per grid point (j, k) of a
  4 × 4 grid. At point (j, k) the body reads block (j, k) of W, the row block j of B0 (1024 × 16) and the column block k
  of A0 (16 × 1024), and stores the whole output block. Nothing is carried between points: what the output's staging
  buffer holds after the body is one function of the three input blocks. Stated for any float instance, from the
  contents `V` the region is entered with.
-/
import proofs.«155099_g11295763988856_week1_w4_63_23_alg».proof.Proof.Gen.KernelIdeal.Launch
import proofs.«155099_g11295763988856_week1_w4_63_23_alg».proof.Proof.Gen.KernelIdeal.Skeleton
import proofs.«155099_g11295763988856_week1_w4_63_23_alg».proof.Proof.Gen.KernelIdeal.Points
import Idealize.ShloMosaic.Lib.Pipeline.FrameBody
import Idealize.ShloMosaic.Lib.Ring
import Idealize.ShloMosaic.Lib.Tactic

-- membership in a rectangle of 1024 or 2048 rows recurses once per coordinate of the long axes
set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The blocks the body reads -/

/-- Window `w`'s block at point `t` of the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block of the entry array at every point, fetched there or not (the block
    of B0 moves only with the first grid coordinate, so it is fetched at every fourth point and found in place at the
    others), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

/-- The whole block of each operand: the rectangles the body's loads and its one store go through. -/
abbrev rW : Rect S1024x1024 := Rect.unit (s := S1024x1024) ![0, 0] S1024x1024.size inb_S1024x1024_S1024x1024_0_0
abbrev rB : Rect S1024x16 := Rect.unit (s := S1024x16) ![0, 0] S1024x16.size inb_S1024x16_S1024x16_0_0
abbrev rA : Rect S16x1024 := Rect.unit (s := S16x1024) ![0, 0] S16x1024.size inb_S16x1024_S16x1024_0_0

/-- The output block after the body, from the blocks of W, B0 and A0: the one store, of the body's value
    `bf16 (w + 1 · (bf16 b · bf16 a))`, covering the block. -/
def foldOut (w : Vec F S1024x1024 .f32) (b : Vec F S1024x16 .f32) (a : Vec F S16x1024 .f32) : Vec F S1024x1024 .bf16 :=
  View.canon [⟨rW, k0_pay1 (View.ld b rB) (View.ld a rA) (View.ld w rW)⟩]

/-- The one store covers the block. -/
theorem foldCover (p0 : Vec F S1024x1024 .bf16) (y : S1024x1024.Idx) :
    ∃ pc ∈ ([⟨rW, p0⟩] : List (View.Piece (Elt F) S1024x1024 .bf16)), y ∈ pc.1.set :=
  View.cover_of_tiled [⟨rW, p0⟩] S1024x1024.size (by rfl) y

/-! ## The body's run -/

set_option maxHeartbeats 1000000 in
/-- On whole staging buffers, the inputs' holding `w`, `b`, `a` and the output's anything, the body runs to the end
    with the inputs as they were and the output at `foldOut w b a`. -/
theorem sound_fold (c : Dev nD) (E : Set ℕ) (i : grid0.Coords)
    (arg2 : Memref sig .tc .vmem S1024x1024 .f32) (harg2 : arg2.IsWhole) (arg3 : Memref sig .tc .vmem S1024x16 .f32) (harg3 : arg3.IsWhole)
    (arg4 : Memref sig .tc .vmem S16x1024 .f32) (harg4 : arg4.IsWhole) (arg5 : Memref sig .tc .vmem S1024x1024 .bf16) (harg5 : arg5.IsWhole)
    (w : Vec F S1024x1024 .f32) (b : Vec F S1024x16 .f32) (a : Vec F S16x1024 .f32) (K : PUnit → sProp 𝕄) :
    iprop(owns (c : Thread nD τ) arg2 fullShare w ∗ owns (c : Thread nD τ) arg3 fullShare b ∗ owns (c : Thread nD τ) arg4 fullShare a
        ∗ (∃ d, owns (c : Thread nD τ) arg5 fullShare d)
        ∗ (iprop(owns (c : Thread nD τ) arg2 fullShare w ∗ owns (c : Thread nD τ) arg3 fullShare b ∗ owns (c : Thread nD τ) arg4 fullShare a
            ∗ owns (c : Thread nD τ) arg5 fullShare (foldOut w b a)) -∗ K ⟨⟩))
      ⊢ wp frame (wpE (defs₀ (F := F)) Variants.none c none) E (cc0__fold_kernel i arg2 harg2 arg3 harg3 arg4 harg4 arg5 harg5) K := by
  simp only [cc0__fold_kernel_eq_skeleton]; unfold cc0__fold_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (foldCover _)

/-! ## The proof data of the region -/

/-- The region's proof data on core `c`: the arrays as entered; after the body at point `t` each input buffer at its
    block and the output buffer at `foldOut` of the three blocks; the invariant is the rest of the scoped memory and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => foldOut (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = foldOut (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `sound_fold` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_fold c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fold

end
-- ==== Proof.Mm.lean ====
/-
  The second kernel region: out = x · W_effᵀ on an 8 × 2 × 4 grid, the last grid axis running over four 1024-wide
  blocks of the contracted dimension. At point (i, j, k) the body reads block (i, k) of x (2048 × 1024, f32) and block
  (j, k) of W_eff (2048 × 1024, bf16). The 2048 × 2048 output block (i, j) stays in its staging buffer over the four
  points of k and is written back after the last: at k = 0 the body stores the block product, at k ≠ 0 it loads what
  the point before left, adds the block product and stores the sum. So what the output buffer holds after a point is a
  recursion on the point. Stated for any float instance, from the contents `V` the region is entered with.
-/
import proofs.«155099_g11295763988856_week1_w4_63_23_alg».proof.Proof.Gen.KernelIdeal.Launch
import proofs.«155099_g11295763988856_week1_w4_63_23_alg».proof.Proof.Gen.KernelIdeal.Skeleton
import proofs.«155099_g11295763988856_week1_w4_63_23_alg».proof.Proof.Gen.KernelIdeal.Points
import Idealize.ShloMosaic.Lib.Pipeline.FrameBody
import Idealize.ShloMosaic.Lib.Ring
import Idealize.ShloMosaic.Lib.Tactic

-- membership in a rectangle of 1024 or 2048 rows recurses once per coordinate of the long axes
set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The blocks the body reads -/

/-- Window `w`'s block at point `t` of the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of x and the block of W_eff at point `t`, at their literal vector types. -/
abbrev xblk (c : Dev nD) (t : Fin cfg1.N) : Vec F S2048x1024 .f32 := iblk1 V c 0 t
abbrev wblk (c : Dev nD) (t : Fin cfg1.N) : Vec F S2048x1024 .bf16 := iblk1 V c 1 t

/-- An input window's staging buffer holds its block of the entry array at every point, for any proof data over `V`
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two branches, over the grid -/

/-- The first branch (store the block product) is taken exactly where the last grid coordinate is 0: at the points
    divisible by 4. -/
theorem first_iff : ∀ t : Fin cfg1.N, k1_cond1 (grid1.coords t) = 1#1 ↔ t.val % 4 = 0 :=
  (by decide +kernel : ∀ t : Fin grid1.N, k1_cond1 (grid1.coords t) = 1#1 ↔ t.val % 4 = 0)
/-- The second branch (add to what the point before left) is taken at all the other points. -/
theorem next_iff : ∀ t : Fin cfg1.N, k1_cond2 (grid1.coords t) = 1#1 ↔ ¬ t.val % 4 = 0 :=
  (by decide +kernel : ∀ t : Fin grid1.N, k1_cond2 (grid1.coords t) = 1#1 ↔ ¬ t.val % 4 = 0)

/-- One of the two branches stores at every point: the output window is idle nowhere. -/
theorem out_live (i : grid1.Coords) : cfg1.idle 2 i = false := by
  show (!(k1_cond1 i == 1#1) && !(k1_cond2 i == 1#1)) = false
  unfold k1_cond1 k1_cond2
  have h : (i 2).val < 4 := (i 2).isLt
  generalize (i 2).val = n at h
  obtain rfl | rfl | rfl | rfl : n = 0 ∨ n = 1 ∨ n = 2 ∨ n = 3 := by omega
  all_goals decide

/-! ## What the body stores -/

/-- The whole block of each operand: the rectangles the body's loads and stores go through. -/
abbrev rX : Rect S2048x1024 := Rect.unit (s := S2048x1024) ![0, 0] S2048x1024.size inb_S2048x1024_S2048x1024_0_0
abbrev rO : Rect S2048x2048 := Rect.unit (s := S2048x2048) ![0, 0] S2048x2048.size inb_S2048x2048_S2048x2048_0_0

/-- The output block after the body at a point with k = 0: the block product `bf16 x · wᵀ` stored over the block. -/
def mmFirst (x : Vec F S2048x1024 .f32) (w : Vec F S2048x1024 .bf16) : Vec F S2048x2048 .f32 :=
  View.canon [⟨rO, k1_pay1 (View.ld x rX) (View.ld w rX)⟩]

/-- The output block after the body at a point with k ≠ 0, over what the buffer held (`prev`): `prev + bf16 x · wᵀ`. -/
def mmNext (prev : Vec F S2048x2048 .f32) (x : Vec F S2048x1024 .f32) (w : Vec F S2048x1024 .bf16) : Vec F S2048x2048 .f32 :=
  View.canon [⟨rO, k1_pay2 (View.ld prev rO) (View.ld x rX) (View.ld w rX)⟩]

/-- The one store covers the block. -/
theorem mmCover (p0 : Vec F S2048x2048 .f32) (y : S2048x2048.Idx) :
    ∃ pc ∈ ([⟨rO, p0⟩] : List (View.Piece (Elt F) S2048x2048 .f32)), y ∈ pc.1.set :=
  View.cover_of_tiled [⟨rO, p0⟩] S2048x2048.size (by rfl) y

/-! ## The body's run, branch by branch -/

set_option maxHeartbeats 1000000 in
/-- At a point with k = 0, on whole staging buffers, the inputs' holding `x` and `w` and the output's anything, the body
    runs to the end with the inputs as they were and the output at `mmFirst x w`. -/
theorem sound_mm_first (c : Dev nD) (E : Set ℕ) (i : grid1.Coords) (hc1 : k1_cond1 i = 1#1) (hc2 : ¬ k1_cond2 i = 1#1)
    (arg3 : Memref sig .tc .vmem S2048x1024 .f32) (harg3 : arg3.IsWhole) (arg4 : Memref sig .tc .vmem S2048x1024 .bf16) (harg4 : arg4.IsWhole)
    (arg5 : Memref sig .tc .vmem S2048x2048 .f32) (harg5 : arg5.IsWhole)
    (x : Vec F S2048x1024 .f32) (w : Vec F S2048x1024 .bf16) (K : PUnit → sProp 𝕄) :
    iprop(owns (c : Thread nD τ) arg3 fullShare x ∗ owns (c : Thread nD τ) arg4 fullShare w
        ∗ (∃ d, owns (c : Thread nD τ) arg5 fullShare d)
        ∗ (iprop(owns (c : Thread nD τ) arg3 fullShare x ∗ owns (c : Thread nD τ) arg4 fullShare w
            ∗ owns (c : Thread nD τ) arg5 fullShare (mmFirst x w)) -∗ K ⟨⟩))
      ⊢ wp frame (wpE (defs₀ (F := F)) Variants.none c none) E (cc1__matmul_kernel i arg3 harg3 arg4 harg4 arg5 harg5) K := by
  simp only [cc1__matmul_kernel_eq_skeleton]; unfold cc1__matmul_kernel_skel
  unfold owns
  iintro ⟨⟨%f3, %hf3, H3⟩, ⟨%f4, %hf4, H4⟩, ⟨%d5, %f5, -, H5⟩, Hk⟩
  subst hf3; subst hf4
  sl_exec (disch := first | exact hc1 | exact hc2)
  sl_step
  iapply Hk
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (mmCover _)

set_option maxHeartbeats 1000000 in
/-- At a point with k ≠ 0, the output's buffer holding `prev`, the body runs to the end with the inputs as they were and
    the output at `mmNext prev x w`. -/
theorem sound_mm_next (c : Dev nD) (E : Set ℕ) (i : grid1.Coords) (hc1 : ¬ k1_cond1 i = 1#1) (hc2 : k1_cond2 i = 1#1)
    (arg3 : Memref sig .tc .vmem S2048x1024 .f32) (harg3 : arg3.IsWhole) (arg4 : Memref sig .tc .vmem S2048x1024 .bf16) (harg4 : arg4.IsWhole)
    (arg5 : Memref sig .tc .vmem S2048x2048 .f32) (harg5 : arg5.IsWhole)
    (prev : Vec F S2048x2048 .f32) (x : Vec F S2048x1024 .f32) (w : Vec F S2048x1024 .bf16) (K : PUnit → sProp 𝕄) :
    iprop(owns (c : Thread nD τ) arg3 fullShare x ∗ owns (c : Thread nD τ) arg4 fullShare w
        ∗ owns (c : Thread nD τ) arg5 fullShare prev
        ∗ (iprop(owns (c : Thread nD τ) arg3 fullShare x ∗ owns (c : Thread nD τ) arg4 fullShare w
            ∗ owns (c : Thread nD τ) arg5 fullShare (mmNext prev x w)) -∗ K ⟨⟩))
      ⊢ wp frame (wpE (defs₀ (F := F)) Variants.none c none) E (cc1__matmul_kernel i arg3 harg3 arg4 harg4 arg5 harg5) K := by
  simp only [cc1__matmul_kernel_eq_skeleton]; unfold cc1__matmul_kernel_skel
  unfold owns
  iintro ⟨⟨%f3, %hf3, H3⟩, ⟨%f4, %hf4, H4⟩, ⟨%f5, %hf5, H5⟩, Hk⟩
  subst hf3; subst hf4; subst hf5
  sl_exec (disch := first | exact hc1 | exact hc2)
  sl_step
  iapply Hk
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (mmCover _)

/-! ## What the output buffer holds after each point -/

/-- The accumulation: after point `n` the output's staging buffer holds the block product of the point's blocks when
    k = 0 (n divisible by 4), and otherwise that product added to what point `n - 1` left. -/
def accAt (c : Dev nD) : (n : ℕ) → n < cfg1.N → Vec F S2048x2048 .f32
  | 0, hn => mmFirst (xblk V c ⟨0, hn⟩) (wblk V c ⟨0, hn⟩)
  | n + 1, hn =>
    if (n + 1) % 4 = 0 then mmFirst (xblk V c ⟨n + 1, hn⟩) (wblk V c ⟨n + 1, hn⟩)
    else mmNext (accAt c n (Nat.lt_of_succ_lt hn)) (xblk V c ⟨n + 1, hn⟩) (wblk V c ⟨n + 1, hn⟩)

theorem accAt_first (c : Dev nD) (t : Fin cfg1.N) (h0 : t.val % 4 = 0) :
    accAt V c t.val t.isLt = mmFirst (xblk V c t) (wblk V c t) := by
  obtain ⟨n, hn⟩ := t
  cases n with
  | zero => rfl
  | succ n => exact (if_pos h0).trans rfl

theorem accAt_next (c : Dev nD) (t : Fin cfg1.N) (h0 : ¬ t.val % 4 = 0) :
    accAt V c t.val t.isLt
      = mmNext (accAt V c (t.val - 1) (Nat.lt_of_le_of_lt (Nat.sub_le _ _) t.isLt)) (xblk V c t) (wblk V c t) := by
  obtain ⟨n, hn⟩ := t
  cases n with
  | zero => exact absurd (Nat.zero_mod _) h0
  | succ n => exact (if_neg h0).trans rfl

/-! ## The proof data of the region -/

/-- The region's proof data on core `c`: the arrays as entered; after the body at point `t` each input buffer at its
    block and the output buffer at the accumulation `accAt`; the invariant is the rest of the scoped memory and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a point with k ≠ 0 the output's staging buffer holds what the body left at the point before: the point is not
    the first, the block was not written back in between (that happens only after k = 3), and the window is neither
    idle nor cut. -/
theorem before1_2_next (c : Dev nD) (t : Fin cfg1.N) (h0 : ¬ t.val % 4 = 0) (d) :
    (dat1 V c).before 2 t d = accAt V c (t.val - 1) (Nat.lt_of_le_of_lt (Nat.sub_le _ _) t.isLt) := by
  rw [Dat.before_out_kept _ 2 rfl t (by omega)
    (Bool.eq_false_iff.mpr fun h => by have := (flush1_2 _).mp h; dsimp only at this; omega)
    out_live (fun _ _ => rfl)]
  dsimp only [dat1]

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body at any point: the input buffers hold their blocks; the point's position modulo 4 says which branch runs;
    at k ≠ 0 the output buffer holds what the point before left; the invariant and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 4 = 0
  · rw [accAt_first V c t h0]
    iintro ⟨HΦ, Ho, ⟨%d0, H0⟩, ⟨%d1, H1⟩, ⟨%d2, H2⟩⟩
    iapply (sound_mm_first c Set.univ (grid1.coords t) ((first_iff t).mpr h0) (fun h => (next_iff t).mp h h0)
      _ _ _ _ _ _ (xblk V c t) (wblk V c t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accAt_next V c t h0]
    simp only [before1_2_next V c t h0]
    iintro ⟨HΦ, Ho, ⟨%d0, H0⟩, ⟨%d1, H1⟩, ⟨%d2, H2⟩⟩
    iapply (sound_mm_next c Set.univ (grid1.coords t) (fun h => h0 ((first_iff t).mp h)) ((next_iff t).mpr h0)
      _ _ _ _ _ _ (accAt V c (t.val - 1) (Nat.lt_of_le_of_lt (Nat.sub_le _ _) t.isLt)) (xblk V c t) (wblk V c t) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  -- the output window stores at every point, so the obligation's case "idle here" does not arise
  rw [show cfg1.idle 2 (cfg1.grid.coords t) = false from out_live _]
  exact sound_body1 V c t

end Cert.KernelIdeal.Mm

end
-- ==== Proof.Run.lean ====
/-
  The whole run of the program: the host stretch that cuts A0 and B0 out of the LoRA stacks, then the fold region, then
  the matmul region. Between two items every unscoped buffer of the core has known contents: the launch memory; then the
  host operations applied to it; then the fold region's arrays at what its write-backs leave (its inputs as entered, W_eff
  at the folded blocks); then the same for the matmul region. Every weakly fair execution from any memory with zero
  counters terminates with every unscoped buffer at the last of these contents; the frame (the four arguments end as
  launched) and the result buffer's contents are read off that. Stated for any float instance.
-/
import proofs.«155099_g11295763988856_week1_w4_63_23_alg».proof.Proof.Gen.KernelIdeal.Launch
import proofs.«155099_g11295763988856_week1_w4_63_23_alg».proof.Proof.Gen.KernelIdeal.Skeleton
import proofs.«155099_g11295763988856_week1_w4_63_23_alg».proof.Proof.Gen.KernelIdeal.Points
import proofs.«155099_g11295763988856_week1_w4_63_23_alg».proof.Proof.Gen.KernelIdeal.Regions
import proofs.«155099_g11295763988856_week1_w4_63_23_alg».proof.Proof.Fold
import proofs.«155099_g11295763988856_week1_w4_63_23_alg».proof.Proof.Mm
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

-- membership in a rectangle of 1024 or 2048 rows recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Fold Cert.KernelIdeal.Mm

variable (m : (ℓ : Loc nD τ sig) → Buf (Elt F) ℓ) (ρ : Dev nD → PrngReg)

/-! ## The buffers' contents between the items -/

/-- At launch, and after the host stretch (the fold region's entry). -/
abbrev At0 : Dev nD → Valuation τ sig (Elt F) := fun c => V0 m c
abbrev At1 : Dev nD → Valuation τ sig (Elt F) := fun c => V1 m c
/-- The same read at the TensorCore's references: what the fold region's proof data take. -/
abbrev In0 : (c : Dev nD) → (b : Ref sig .tc) → Buf (Elt F) ((c : Thread nD τ).loc b) := fun c b => At1 m c b

/-- After the fold region: its arrays at what the pipeline leaves, every other buffer as entered. -/
def At2 (c : Dev nD) : Valuation τ sig (Elt F) :=
  Pipeline.withArrays spec0 c (At1 m c) fun w => (dat0 (In0 m) c).arrAt w cfg0.N
theorem At2_arr (c : Dev nD) (w : Fin cfg0.W) :
    At2 m c (Proc.devRef .tc (Pipeline.arrRef spec0 w)) = (dat0 (In0 m) c).arrAt w cfg0.N := by
  unfold At2; exact Pipeline.withArrays_arr spec0 launch0.win.arr_inj c _ _ w
theorem At2_of_ne (c : Dev nD) (b : Ref sig .tc) (hb : ∀ w, Pipeline.arrRef spec0 w ≠ b) :
    At2 m c (Proc.devRef .tc b) = At1 m c (Proc.devRef .tc b) := by
  unfold At2; exact Pipeline.withArrays_of_ne spec0 c _ _ b hb
/-- The same read at the TensorCore's references: what the matmul region's proof data take. -/
abbrev In1 : (c : Dev nD) → (b : Ref sig .tc) → Buf (Elt F) ((c : Thread nD τ).loc b) := fun c b => At2 m c b
theorem hF0 (c : Dev nD) (w : Fin cfg0.W) : (dat0 (In0 m) c).arrAt w cfg0.N = In1 m c (Pipeline.arrRef spec0 w) :=
  (At2_arr m c w).symm
theorem hrest0 (c : Dev nD) : ∀ b, b ∉ Finset.univ.image (Pipeline.arrRef spec0) → In1 m c b = In0 m c b :=
  fun b hb => At2_of_ne m c b fun w e => hb (Finset.mem_image.mpr ⟨w, Finset.mem_univ _, e⟩)

/-- After the matmul region: its arrays at what the pipeline leaves, every other buffer as entered. -/
def At3 (c : Dev nD) : Valuation τ sig (Elt F) :=
  Pipeline.withArrays spec1 c (At2 m c) fun w => (dat1 (In1 m) c).arrAt w cfg1.N
theorem At3_arr (c : Dev nD) (w : Fin cfg1.W) :
    At3 m c (Proc.devRef .tc (Pipeline.arrRef spec1 w)) = (dat1 (In1 m) c).arrAt w cfg1.N := by
  unfold At3; exact Pipeline.withArrays_arr spec1 launch1.win.arr_inj c _ _ w
theorem At3_of_ne (c : Dev nD) (b : Ref sig .tc) (hb : ∀ w, Pipeline.arrRef spec1 w ≠ b) :
    At3 m c (Proc.devRef .tc b) = At2 m c (Proc.devRef .tc b) := by
  unfold At3; exact Pipeline.withArrays_of_ne spec1 c _ _ b hb
abbrev Out1 : (c : Dev nD) → (b : Ref sig .tc) → Buf (Elt F) ((c : Thread nD τ).loc b) := fun c b => At3 m c b
theorem hF1 (c : Dev nD) (w : Fin cfg1.W) : (dat1 (In1 m) c).arrAt w cfg1.N = Out1 m c (Pipeline.arrRef spec1 w) :=
  (At3_arr m c w).symm
theorem hrest1 (c : Dev nD) : ∀ b, b ∉ Finset.univ.image (Pipeline.arrRef spec1) → Out1 m c b = In1 m c b :=
  fun b hb => At3_of_ne m c b fun w e => hb (Finset.mem_image.mpr ⟨w, Finset.mem_univ _, e⟩)

/-! ### The arguments end as launched: the host stretch writes only its own four results, and a region changes only
    its output array -/

/-- x is the matmul region's first input and is read by nothing before it. -/
theorem At3_main_arg0 (c : Dev nD) : At3 m c (Proc.devRef .tc main_arg0) = m ((c : Thread nD τ).loc main_arg0) :=
  calc At3 m c (Proc.devRef .tc main_arg0)
    _ = At2 m c (Proc.devRef .tc main_arg0) := (At3_arr m c 0).trans (((dat1 (In1 m) c).arrAt_in 0 rfl _).trans (A_eq1 (In1 m) c 0))
    _ = At1 m c (Proc.devRef .tc main_arg0) := At2_of_ne m c main_arg0 (by decide)
    _ = m ((c : Thread nD τ).loc main_arg0) := (V1_of m c main_arg0 (by decide)).trans rfl
/-- W is the fold region's first input. -/
theorem At3_main_arg1 (c : Dev nD) : At3 m c (Proc.devRef .tc main_arg1) = m ((c : Thread nD τ).loc main_arg1) :=
  calc At3 m c (Proc.devRef .tc main_arg1)
    _ = At2 m c (Proc.devRef .tc main_arg1) := At3_of_ne m c main_arg1 (by decide)
    _ = At1 m c (Proc.devRef .tc main_arg1) := (At2_arr m c 0).trans (((dat0 (In0 m) c).arrAt_in 0 rfl _).trans (A_eq0 (In0 m) c 0))
    _ = m ((c : Thread nD τ).loc main_arg1) := (V1_of m c main_arg1 (by decide)).trans rfl
/-- The two LoRA stacks are read by the host stretch only. -/
theorem At3_main_arg2 (c : Dev nD) : At3 m c (Proc.devRef .tc main_arg2) = m ((c : Thread nD τ).loc main_arg2) :=
  calc At3 m c (Proc.devRef .tc main_arg2)
    _ = At2 m c (Proc.devRef .tc main_arg2) := At3_of_ne m c main_arg2 (by decide)
    _ = At1 m c (Proc.devRef .tc main_arg2) := At2_of_ne m c main_arg2 (by decide)
    _ = m ((c : Thread nD τ).loc main_arg2) := (V1_of m c main_arg2 (by decide)).trans rfl
theorem At3_main_arg3 (c : Dev nD) : At3 m c (Proc.devRef .tc main_arg3) = m ((c : Thread nD τ).loc main_arg3) :=
  calc At3 m c (Proc.devRef .tc main_arg3)
    _ = At2 m c (Proc.devRef .tc main_arg3) := At3_of_ne m c main_arg3 (by decide)
    _ = At1 m c (Proc.devRef .tc main_arg3) := At2_of_ne m c main_arg3 (by decide)
    _ = m ((c : Thread nD τ).loc main_arg3) := (V1_of m c main_arg3 (by decide)).trans rfl

/-- The result buffer ends at what the matmul region's write-backs leave in its output array. -/
theorem At3_main_v0 (c : Dev nD) : At3 m c (Proc.devRef .tc main_v0) = (dat1 (In1 m) c).arrAt 2 cfg1.N :=
  At3_arr m c 2

/-! ### What the matmul region is entered with -/

/-- x as launched. -/
theorem In1_main_arg0 (c : Dev nD) : In1 m c main_arg0 = m ((c : Thread nD τ).loc main_arg0) :=
  (At2_of_ne m c main_arg0 (by decide)).trans ((V1_of m c main_arg0 (by decide)).trans rfl)
/-- W_eff at what the fold region's write-backs leave. -/
theorem In1_main_call0_v4 (c : Dev nD) : In1 m c main_call0_v4 = (dat0 (In0 m) c).arrAt 3 cfg0.N :=
  At2_arr m c 3
/-- W as launched, at the fold region's entry. -/
theorem In0_main_arg1 (c : Dev nD) : In0 m c main_arg1 = m ((c : Thread nD τ).loc main_arg1) :=
  (V1_of m c main_arg1 (by decide)).trans rfl

/-! ## The proof data family and what rides beside the buffers -/

/-- Every pipeline's proof data, each at its region's entry contents. -/
def pdat : (p : Fin 2) → (c : Dev nD) → Dat τ (Elt F) Unit ℕ (UR sig nD τ) ℕ (Pipeline.pin (pcfgs (F := F)) adm p) c
  | ⟨0, _⟩ => fun c => dat0 (In0 m) c
  | ⟨1, _⟩ => fun c => dat1 (In1 m) c
abbrev 𝒱₀ : Variants := Variants.none
/-- No core owes another anything: no level is assigned. -/
abbrev Lz : GSem nD τ sig → Finset Unit := fun _ => ∅
abbrev lvz : GSem nD τ sig → Unit → ℕ := fun _ _ => 0
/-- Beside the buffers, through every item: the core's generator register at some state, and the core owing nothing. -/
abbrev Rest (c : Dev nD) : sProp 𝕄 := iprop((∃ r, prngReg c r) ∗ ∃ W, owes (c : Thread nD τ) (0 : CellTallies nD τ sig Unit) W)

/-- The host stretch as an item: from the launch contents, `Rest` riding along. -/
abbrev hostItem : Pipeline.HostSeg (Name := ℕ) (U := UR sig nD τ) (pcfgs (F := F)) defs₀ 𝒱₀ Lz lvz :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (At0 m) Rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator register. -/
abbrev Tend (c : Dev nD) : sProp 𝕄 := iprop(StableHlo.held (c : Thread nD τ) (Pipeline.ucRefs τ sig) (At3 m c) ∗ ∃ r, prngReg c r)

/-! ## The regions as items -/

set_option backward.isDefEq.respectTransparency.types false in
/-- The fold region: entered with every unscoped buffer at `At1`, left at `At2`. Its arrays are split out of the
    unscoped buffers and put back at the exit contents; the generator register goes into the invariant and comes out;
    nothing is owed; the kernel has no semaphore of its own. -/
def reg0 : Pipeline.RegionSeg (pcfgs (F := F)) adm (pdat m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (In0 m) c).loose
  hwaits := Pipeline.hwaits_of_owed_zero _ _ _ _ Lz lvz 0 fun _ _ => rfl
  pre c := iprop(StableHlo.held (c : Thread nD τ) (Pipeline.ucRefs τ sig) (At1 m c) ∗ Rest c)
  post c := iprop(StableHlo.held (c : Thread nD τ) (Pipeline.ucRefs τ sig) (At2 m c) ∗ Rest c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) adm (pdat m) launch0.win launch0.arr_whole c
      ((pdat m 0 c).share_full fun _ => rfl) (In0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdat m) ((pdat m 0 c).share_full fun _ => rfl)
      (In0 m c) (In1 m c) ((pdat m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region: entered with every unscoped buffer at `At2`, left at `At3` (what is read at the end). -/
def reg1 : Pipeline.RegionSeg (pcfgs (F := F)) adm (pdat m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (In1 m) c).loose
  hwaits := Pipeline.hwaits_of_owed_zero _ _ _ _ Lz lvz 1 fun _ _ => rfl
  pre c := iprop(StableHlo.held (c : Thread nD τ) (Pipeline.ucRefs τ sig) (At2 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none]
    have hsplit := Pipeline.arrays_of_unscopedBufs (p := 1) (pcfgs (F := F)) adm (pdat m) launch1.win launch1.arr_whole c
      ((pdat m 1 c).share_full fun _ => rfl) (In1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdat m) ((pdat m 1 c).share_full fun _ => rfl)
      (In1 m c) (Out1 m c) ((pdat m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The three items in order. -/
abbrev items : List (Pipeline.Seg (pcfgs (F := F)) adm (pdat m) () defs₀ 𝒱₀ Lz lvz) :=
  [ .host (hostItem m), .region (reg0 m), .region (reg1 m) ]
/-- The program is the run of its items. -/
theorem main_items (c : Dev nD) : main (F := F) c = Pipeline.Seg.run (items m) := (main_chain c).trans (by chain_rfl)

set_option backward.isDefEq.respectTransparency.types false in
/-- From any memory with zero counters every weakly fair execution of the program on the TensorCores terminates,
    nothing faulting, and every final state has every unscoped buffer at the last contents `At3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = At3 m c b) :=
  Pipeline.θ_run_regions_kit (pcfgs (F := F)) adm (pdat m) () cellOf_inj emb₁ defs₀ 𝒱₀ Lz lvz m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (At0 m c) ∗ Rest c)) (Tₙ := Tend m)
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (At0 m c)
        from Pipeline.unscopedBufs_held c (At0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = At3 m c b)
    (hfin := fun c s' => by
      iintro ⟨⟨Hh, -⟩, HSI⟩
      unfold StableHlo.held
      imodintro
      iapply (pointsTo_read_all (Pipeline.ucRefs τ sig) (fun b => (((c : Thread nD τ)).1, b)) (At3 m c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (At3_main_arg0 m c),
     (h c _ (mem_uc main_arg1 (by decide))).trans (At3_main_arg1 m c),
     (h c _ (mem_uc main_arg2 (by decide))).trans (At3_main_arg2 m c),
     (h c _ (mem_uc main_arg3 (by decide))).trans (At3_main_arg3 m c)⟩) (run_all m ρ)

/-- The run with the result named: the result buffer ends at what the matmul region's write-backs leave in its output
    array, and the arguments end as launched. -/
theorem run_value : θ_run defs (onTc (τ := τ) (main (F := F))) ⟨m, fun _ => 0, ρ⟩ (fun r => ∀ c : Dev nD,
      r.2.mem ((c.tc : Thread nD τ).loc main_v0) = (dat1 (In1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v0 (by decide))).trans (At3_main_v0 m c),
     (h c _ (mem_uc main_arg0 (by decide))).trans (At3_main_arg0 m c),
     (h c _ (mem_uc main_arg1 (by decide))).trans (At3_main_arg1 m c),
     (h c _ (mem_uc main_arg2 (by decide))).trans (At3_main_arg2 m c),
     (h c _ (mem_uc main_arg3 (by decide))).trans (At3_main_arg3 m c)⟩) (run_all m ρ)

end Cert.KernelIdeal.Run

end
-- ==== Proof.Spec.lean ====
/-
  The mathematics of the claim, with no program in sight.

  x is 16384 × 4096, W is 4096 × 4096, the two LoRA stacks are 8 × 16 × 4096 and 8 × 4096 × 16; only slot 0 is used:
  A0 = lora_A[0] (16 × 4096), B0 = lora_B[0] (4096 × 16). The scaling alpha / rank is 16 / 16, the float literal 1.0.

  The kernel folds the rank-16 update into the weight,  W_eff[j, k] = W[j, k] + 1 · Σ_r B0[j, r] · A0[r, k],  and
  multiplies once:  out[i, j] = Σ_k x[i, k] · W_eff[j, k].
  The reference multiplies twice:  out[i, j] = Σ_k x[i, k] · W[j, k] + 1 · Σ_r (Σ_k x[i, k] · A0[r, k]) · B0[j, r].

  On the extended reals the two agree when every entry is a real number: distributing x[i, k] over the sum in W_eff
  and exchanging the sums over k and r are laws of the reals that fail at the infinities, so finiteness is used.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The shapes of the four arguments, of slot 0 of each stack, and of the result (the result has x's shape). -/
abbrev SX : Shape := ⟨2, ![16384, 4096]⟩
abbrev SW : Shape := ⟨2, ![4096, 4096]⟩
abbrev SA : Shape := ⟨3, ![8, 16, 4096]⟩
abbrev SB : Shape := ⟨3, ![8, 4096, 16]⟩
abbrev SA0 : Shape := ⟨2, ![16, 4096]⟩
abbrev SB0 : Shape := ⟨2, ![4096, 16]⟩

/-- The scaling factor as both programs spell it: the float literal 1.0. -/
def one : EReal := Ideal.ofBits .f32 0x3F800000#32

/-- It denotes the number one. -/
theorem one_eq : one = 1 := by
  unfold one; simp [Ideal.ofBits, Ideal.ieee, -EReal.coe_mul]; norm_num

/-- Slot 0 of the first stack: A0[r, k] = lora_A[0, r, k]. -/
def a0 (la : SA.Idx → EReal) : SA0.Idx → EReal := fun i => la (ix3 (0 : Fin 8) (i 0) (i 1))
/-- Slot 0 of the second stack: B0[j, r] = lora_B[0, j, r]. -/
def b0 (lb : SB.Idx → EReal) : SB0.Idx → EReal := fun i => lb (ix3 (0 : Fin 8) (i 0) (i 1))

/-- The folded weight: W_eff[j, k] = W[j, k] + 1 · Σ_r B[j, r] · A[r, k]. -/
def weff (W : SW.Idx → EReal) (B : SB0.Idx → EReal) (A : SA0.Idx → EReal) : SW.Idx → EReal :=
  fun i => W i + one * ∑ r : Fin 16, B (ix2 (i 0) r) * A (ix2 r (i 1))

/-- x times the transpose of a 4096 × 4096 weight: out[i, j] = Σ_k x[i, k] · Wb[j, k]. -/
def xwt (X : SX.Idx → EReal) (Wb : SW.Idx → EReal) : SX.Idx → EReal :=
  fun i => ∑ k : Fin 4096, X (ix2 (i 0) k) * Wb (ix2 (i 1) k)

/-- The kernel's result: one product with the folded weight. -/
def kernelOut (X : SX.Idx → EReal) (W : SW.Idx → EReal) (la : SA.Idx → EReal) (lb : SB.Idx → EReal) : SX.Idx → EReal :=
  xwt X (weff W (b0 lb) (a0 la))

/-- The reference's result: the base product plus 1 times the two-step low-rank product. -/
def refOut (X : SX.Idx → EReal) (W : SW.Idx → EReal) (la : SA.Idx → EReal) (lb : SB.Idx → EReal) : SX.Idx → EReal :=
  fun i => (∑ k : Fin 4096, X (ix2 (i 0) k) * W (ix2 (i 1) k))
    + one * ∑ r : Fin 16, (∑ k : Fin 4096, X (ix2 (i 0) k) * la (ix3 (0 : Fin 8) r k)) * lb (ix3 (0 : Fin 8) (i 1) r)

/-- Every entry of an array is a real number. -/
def AllReal {ι : Type} (f : ι → EReal) : Prop := ∀ i, ∃ r : ℝ, f i = (r : EReal)

end Cert.Spec

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.FoldValue.lean ====
/-
  What the fold region leaves in W_eff's array: every 1024 × 1024 block is written back once, at its own grid point, and
  holds  W + 1 · (B0 · A0)  restricted to the block; the sixteen blocks tile the array.
-/
import proofs.«155099_g11295763988856_week1_w4_63_23_alg».proof.Proof.Fold
import proofs.«155099_g11295763988856_week1_w4_63_23_alg».proof.Proof.Spec
import proofs.«155099_g11295763988856_week1_w4_63_23_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.FoldValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Fold

/-! ## The body's value at an index -/

/-- The two zero offsets, as the constant-zero function. -/
theorem zeroOff : (![0, 0] : Fin 2 → Nat) = fun _ => 0 := funext fun a => by
  match a with
  | ⟨0, _⟩ => rfl
  | ⟨1, _⟩ => rfl

/-- The body's product has the plain dimension numbers: rows × 16 times 16 × columns. -/
theorem foldDims_plain : dot_S1024x16_S16x1024_S1024x1024_1_0_0_1_n_n = DotDims.plain 1024 16 1024 := rfl

/-- The value the body stores, at row p and column q of the block: the entry of W's block plus one times the inner product
    of row p of B0's block with column q of A0's block. The changes of format are the identity on extended reals. -/
theorem foldPayload_apply (b : Vec Ideal S1024x16 .f32) (a : Vec Ideal S16x1024 .f32) (w : Vec Ideal S1024x1024 .f32)
    (p q : Fin 1024) :
    k0_pay1 b a w (ix2 p q) = w (ix2 p q) + Cert.Spec.one * ∑ r : Fin 16, b (ix2 p r) * a (ix2 r q) := by
  unfold k0_pay1
  rw [foldDims_plain]
  show w (ix2 p q) + Cert.Spec.one * FloatOps.matmul (F := Ideal) (DotDims.plain 1024 16 1024) none
      (truncf FTy.bf16 (shapeCast S1024x16 b shapeCasts_S1024x16_S1024x16) bitsLt_bf16_f32)
      (truncf FTy.bf16 (shapeCast S16x1024 a shapeCasts_S16x1024_S16x1024) bitsLt_bf16_f32)
      (constant S1024x1024 FTy.f32 0x00000000#32) (ix2 p q) = _
  rw [Cert.LibPlainDot.matmul_plain_zero]
  simp only [shapeCast_self]
  rfl

variable (V : (c : Dev nD) → (b : Ref sig .tc) → Buf (Elt Ideal) ((c : Thread nD τ).loc b))

/-! ## The blocks, read where the output block's index says -/

/-- The printed index maps over the sixteen points: W's block moves with the output's on both axes, B0's with its row
    block and A0's with its column block; point t writes block (t / 4, t % 4). -/
theorem foldIdx : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = 0
    ∧ win0_2.index t (0 : Fin 2) = 0 ∧ win0_2.index t (1 : Fin 2) = win0_3.index t (1 : Fin 2)
    ∧ win0_3.index t (0 : Fin 2) = t.val / 4 ∧ win0_3.index t (1 : Fin 2) = t.val % 4 :=
  (by decide +kernel : ∀ t : Fin grid0.N, _)

/-- Entry (p, q) of W's block at point t is W at the output block's offsets plus (p, q). -/
theorem wBlock_apply (c : Dev nD) (t : Fin cfg0.N) (p q : Fin 1024) (P Q : Fin 4096)
    (hP : P.val = win0_3.index t (0 : Fin 2) * 1024 + p.val) (hQ : Q.val = win0_3.index t (1 : Fin 2) * 1024 + q.val) :
    (iblk0 V c 0 t : Vec Ideal S1024x1024 .f32) (ix2 p q) = (V c main_arg1 : Cert.Spec.SW.Idx → EReal) (ix2 P Q) := by
  obtain ⟨e00, e01, -⟩ := foldIdx t
  unfold iblk0
  rw [View.read_apply]
  show V c main_arg1 _ = V c main_arg1 _
  congr 1
  funext a
  apply Fin.ext
  match a with
  | ⟨0, _⟩ => show win0_0.index t (0 : Fin 2) * 1024 + 1 * p.val = P.val; rw [e00, hP]; omega
  | ⟨1, _⟩ => show win0_0.index t (1 : Fin 2) * 1024 + 1 * q.val = Q.val; rw [e01, hQ]; omega

/-- Entry (p, r) of B0's block at point t is B0 at the output block's row offset plus p, column r. -/
theorem bBlock_apply (c : Dev nD) (t : Fin cfg0.N) (p : Fin 1024) (r : Fin 16) (P : Fin 4096)
    (hP : P.val = win0_3.index t (0 : Fin 2) * 1024 + p.val) :
    (iblk0 V c 1 t : Vec Ideal S1024x16 .f32) (ix2 p r) = (V c main_call0_v3 : Cert.Spec.SB0.Idx → EReal) (ix2 P r) := by
  obtain ⟨-, -, e10, e11, -⟩ := foldIdx t
  unfold iblk0
  rw [View.read_apply]
  show V c main_call0_v3 _ = V c main_call0_v3 _
  congr 1
  funext a
  apply Fin.ext
  match a with
  | ⟨0, _⟩ => show win0_1.index t (0 : Fin 2) * 1024 + 1 * p.val = P.val; rw [e10, hP]; omega
  | ⟨1, _⟩ => show win0_1.index t (1 : Fin 2) * 16 + 1 * r.val = r.val; rw [e11]; omega

/-- Entry (r, q) of A0's block at point t is A0 at row r, the output block's column offset plus q. -/
theorem aBlock_apply (c : Dev nD) (t : Fin cfg0.N) (r : Fin 16) (q : Fin 1024) (Q : Fin 4096)
    (hQ : Q.val = win0_3.index t (1 : Fin 2) * 1024 + q.val) :
    (iblk0 V c 2 t : Vec Ideal S16x1024 .f32) (ix2 r q) = (V c main_call0_v1 : Cert.Spec.SA0.Idx → EReal) (ix2 r Q) := by
  obtain ⟨-, -, -, -, e20, e21, -⟩ := foldIdx t
  unfold iblk0
  rw [View.read_apply]
  show V c main_call0_v1 _ = V c main_call0_v1 _
  congr 1
  funext a
  apply Fin.ext
  match a with
  | ⟨0, _⟩ => show win0_2.index t (0 : Fin 2) * 16 + 1 * r.val = r.val; rw [e20]; omega
  | ⟨1, _⟩ => show win0_2.index t (1 : Fin 2) * 1024 + 1 * q.val = Q.val; rw [e21, hQ]; omega

/-! ## What a point writes back -/

/-- If the three blocks are the arrays read at the block's offsets, the body's value at (p, q) is the folded weight at
    the array's index (P, Q): the same sum over the sixteen shared coordinates, term by term. -/
theorem foldPayload_weff (WA : Cert.Spec.SW.Idx → EReal) (BA : Cert.Spec.SB0.Idx → EReal) (AA : Cert.Spec.SA0.Idx → EReal)
    (b : Vec Ideal S1024x16 .f32) (a : Vec Ideal S16x1024 .f32) (w : Vec Ideal S1024x1024 .f32)
    (p q : Fin 1024) (P Q : Fin 4096)
    (hw : w (ix2 p q) = WA (ix2 P Q)) (hb : ∀ r : Fin 16, b (ix2 p r) = BA (ix2 P r)) (ha : ∀ r : Fin 16, a (ix2 r q) = AA (ix2 r Q)) :
    k0_pay1 b a w (ix2 p q) = Cert.Spec.weff WA BA AA (ix2 P Q) := by
  rw [foldPayload_apply, hw]
  show WA (ix2 P Q) + Cert.Spec.one * ∑ r : Fin 16, b (ix2 p r) * a (ix2 r q)
    = WA (ix2 P Q) + Cert.Spec.one * ∑ r : Fin 16, BA (ix2 P r) * AA (ix2 r Q)
  exact congrArg (fun z => WA (ix2 P Q) + Cert.Spec.one * z) (Finset.sum_congr rfl fun r _ => by rw [hb r, ha r])

/-- What point t writes back is block t of the folded weight of the three arrays: the one store covers the staging buffer,
    its value at (p, q) is the body's, and each operand block is its array at the output block's offsets. -/
theorem foldFlushed (c : Dev nD) (t : Fin cfg0.N) :
    (dat0 (F := Ideal) V c).flushed 3 t = ((cfg0.win 3).blk t).view.read (Elt Ideal)
      (Cert.Spec.weff (V c main_arg1) (V c main_call0_v3) (V c main_call0_v1)) := by
  show (cfg0.win 3).cut (grid0.coords t) ((dat0 V c).after 3 t) = _
  rw [after0_3]
  unfold foldOut
  rw [View.canon_unit_zero zeroOff]
  simp only [View.ld_unit_zero (S := S1024x1024) zeroOff, View.ld_unit_zero (S := S1024x16) zeroOff,
    View.ld_unit_zero (S := S16x1024) zeroOff]
  obtain ⟨-, -, -, -, -, -, e30, e31⟩ := foldIdx t
  have hN : t.val < 16 := Nat.lt_of_lt_of_eq (show t.val < grid0.N from t.isLt) N_0
  funext j
  obtain ⟨p, q, rfl⟩ : ∃ (p : Fin 1024) (q : Fin 1024), j = ix2 p q := ⟨j 0, j 1, eq_ix2 j⟩
  rw [View.read_apply]
  have hp : p.val < 1024 := p.isLt
  have hq : q.val < 1024 := q.isLt
  have hE : ((cfg0.win 3).blk t).view.emb (ix2 p q)
      = (ix2 (⟨win0_3.index t (0 : Fin 2) * 1024 + p.val, by omega⟩ : Fin 4096) (⟨win0_3.index t (1 : Fin 2) * 1024 + q.val, by omega⟩ : Fin 4096) : Cert.Spec.SW.Idx) := by
    funext a
    apply Fin.ext
    match a with
    | ⟨0, _⟩ => show win0_3.index t (0 : Fin 2) * 1024 + 1 * p.val = win0_3.index t (0 : Fin 2) * 1024 + p.val; omega
    | ⟨1, _⟩ => show win0_3.index t (1 : Fin 2) * 1024 + 1 * q.val = win0_3.index t (1 : Fin 2) * 1024 + q.val; omega
  refine Eq.trans ?_ (congrArg (Cert.Spec.weff (V c main_arg1) (V c main_call0_v3) (V c main_call0_v1)) hE.symm)
  exact foldPayload_weff (V c main_arg1) (V c main_call0_v3) (V c main_call0_v1)
    (iblk0 V c 1 t) (iblk0 V c 2 t) (iblk0 V c 0 t) p q _ _
    (wBlock_apply V c t p q _ _ rfl rfl) (fun r => bBlock_apply V c t p r _ rfl) (fun r => aBlock_apply V c t r q _ rfl)

/-! ## The sixteen blocks tile the array -/

/-- An index of W_eff's array is in point t's block iff each coordinate is in the block's range on its axis. -/
theorem mem_foldBlk (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_call0_v4).slice (win0_3.rect t)).set ↔ _
  rw [View.set_slice_whole, Rect.mem_set_unit]
  exact Iff.rfl

/-- The index (P, Q) lies in the block of the point with coordinates (P / 1024, Q / 1024), the point number
    (P / 1024) · 4 + Q / 1024. -/
theorem foldCoverAt (t : Fin cfg0.N) (i : S4096x4096.Idx) (ht : t.val = (i 0).val / 1024 * 4 + (i 1).val / 1024) :
    i ∈ ((cfg0.win 3).blk t).view.set := by
  obtain ⟨-, -, -, -, -, -, e30, e31⟩ := foldIdx t
  have h0 : (i 0).val < 4096 := (i 0).isLt
  have h1 : (i 1).val < 4096 := (i 1).isLt
  rw [mem_foldBlk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- After the fold region's sixteen write-backs, W_eff's array is the folded weight of the arrays the region was entered
    with: W, B0 (the region's second operand) and A0 (its third). -/
theorem fold_array (c : Dev nD) :
    (dat0 (F := Ideal) V c).arrAt 3 cfg0.N = Cert.Spec.weff (V c main_arg1) (V c main_call0_v3) (V c main_call0_v1) := by
  exact (dat0 (F := Ideal) V c).arrAt_eq_of_cover 3
    (Cert.Spec.weff (V c main_arg1) (V c main_call0_v3) (V c main_call0_v1)) (fun t _ => foldFlushed V c t) fun i =>
    have h0 : (i 0).val < 4096 := (i 0).isLt
    have h1 : (i 1).val < 4096 := (i 1).isLt
    ⟨⟨(i 0).val / 1024 * 4 + (i 1).val / 1024, by rw [show cfg0.N = 16 from N_0]; omega⟩, flush0_3 _, foldCoverAt _ i rfl⟩

end Cert.KernelIdeal.FoldValue

end
-- ==== Proof.MmValue.lean ====
/-
  What the matmul region leaves in the result array: each 2048 × 2048 block is written back once, after the four points of
  the contraction axis, and by then holds the sum of the four block products, which is the full product x · W_effᵀ
  restricted to the block; the sixteen blocks tile the array.
-/
import proofs.«155099_g11295763988856_week1_w4_63_23_alg».proof.Proof.Mm
import proofs.«155099_g11295763988856_week1_w4_63_23_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.MmValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Mm

variable (V : (c : Dev nD) → (b : Ref sig .tc) → Buf (Elt Ideal) ((c : Thread nD τ).loc b))

/-! ## The block product at an entry -/

/-- Row coordinate of the left operand: the output's row. -/
theorem lhs_row (i : S2048x2048.Idx) (q : dot_S2048x1024_S2048x1024_S2048x2048_1_1_0_0_n_n.contr.Idx) :
    (dot_S2048x1024_S2048x1024_S2048x2048_1_1_0_0_n_n.lhsIdx i q 0).val = (i 0).val := by
  unfold DotDims.lhsIdx
  rw [dif_neg (show ¬(0 : Fin S2048x1024.rank) ∈ dot_S2048x1024_S2048x1024_S2048x2048_1_1_0_0_n_n.lhsBatch by decide),
    dif_pos (show (0 : Fin S2048x1024.rank) ∈ dot_S2048x1024_S2048x1024_S2048x2048_1_1_0_0_n_n.lhsNonContracting by decide)]
  rfl
/-- Column coordinate of the left operand: the contracted position. -/
theorem lhs_col (i : S2048x2048.Idx) (q : dot_S2048x1024_S2048x1024_S2048x2048_1_1_0_0_n_n.contr.Idx) :
    (dot_S2048x1024_S2048x1024_S2048x2048_1_1_0_0_n_n.lhsIdx i q 1).val = (q ⟨0, by decide⟩).val :=
  dot_S2048x1024_S2048x1024_S2048x2048_1_1_0_0_n_n.lhsIdx_val_of_single rfl i q
/-- Row coordinate of the right operand: the output's column (the right operand enters transposed). -/
theorem rhs_row (i : S2048x2048.Idx) (q : dot_S2048x1024_S2048x1024_S2048x2048_1_1_0_0_n_n.contr.Idx) :
    (dot_S2048x1024_S2048x1024_S2048x2048_1_1_0_0_n_n.rhsIdx i q 0).val = (i 1).val := by
  unfold DotDims.rhsIdx
  rw [dif_neg (show ¬(0 : Fin S2048x1024.rank) ∈ dot_S2048x1024_S2048x1024_S2048x2048_1_1_0_0_n_n.rhsBatch by decide),
    dif_pos (show (0 : Fin S2048x1024.rank) ∈ dot_S2048x1024_S2048x1024_S2048x2048_1_1_0_0_n_n.rhsNonContracting by decide)]
  rfl
/-- Column coordinate of the right operand: the contracted position. -/
theorem rhs_col (i : S2048x2048.Idx) (q : dot_S2048x1024_S2048x1024_S2048x2048_1_1_0_0_n_n.contr.Idx) :
    (dot_S2048x1024_S2048x1024_S2048x2048_1_1_0_0_n_n.rhsIdx i q 1).val = (q ⟨0, by decide⟩).val :=
  dot_S2048x1024_S2048x1024_S2048x2048_1_1_0_0_n_n.rhsIdx_val_of_single rfl i q

/-- The product of a 2048 × 1024 block with the transpose of another, accumulated into zero: entry (p, q) is the sum over
    the 1024 contracted positions of left[p, kk] · right[q, kk]. -/
theorem blockProd_apply (x w : FVec Ideal S2048x1024 .bf16) (p q : Fin 2048) :
    matmul dot_S2048x1024_S2048x1024_S2048x2048_1_1_0_0_n_n none x w (constant (F := Ideal) S2048x2048 .f32 0x00000000#32) (ix2 p q)
      = ∑ kk : Fin 1024, x (ix2 p kk) * w (ix2 q kk) := by
  simp only [matmul]
  rw [Ideal.matmul_constant_zero_apply,
    ← Equiv.sum_comp (ValueIdx.contrEquiv1 dot_S2048x1024_S2048x1024_S2048x2048_1_1_0_0_n_n 1024 rfl rfl).symm]
  refine Finset.sum_congr rfl fun kk _ => ?_
  have hk := ValueIdx.contrEquiv1_symm_val dot_S2048x1024_S2048x1024_S2048x2048_1_1_0_0_n_n 1024 rfl rfl kk
  have el : dot_S2048x1024_S2048x1024_S2048x2048_1_1_0_0_n_n.lhsIdx (ix2 p q)
      ((ValueIdx.contrEquiv1 dot_S2048x1024_S2048x1024_S2048x2048_1_1_0_0_n_n 1024 rfl rfl).symm kk) = ix2 p kk :=
    funext fun a => Fin.ext (by
      match a with
      | ⟨0, _⟩ => exact lhs_row _ _
      | ⟨1, _⟩ => exact (lhs_col _ _).trans hk)
  have er : dot_S2048x1024_S2048x1024_S2048x2048_1_1_0_0_n_n.rhsIdx (ix2 p q)
      ((ValueIdx.contrEquiv1 dot_S2048x1024_S2048x1024_S2048x2048_1_1_0_0_n_n 1024 rfl rfl).symm kk) = ix2 q kk :=
    funext fun a => Fin.ext (by
      match a with
      | ⟨0, _⟩ => exact rhs_row _ _
      | ⟨1, _⟩ => exact (rhs_col _ _).trans hk)
  rw [el, er]

/-- The payload stored at k = 0, at an entry: the block product. -/
theorem pay_first_apply (x : Vec Ideal S2048x1024 .f32) (w : Vec Ideal S2048x1024 .bf16) (p q : Fin 2048) :
    k1_pay1 (F := Ideal) x w (ix2 p q) = ∑ kk : Fin 1024, x (ix2 p kk) * w (ix2 q kk) := by
  unfold k1_pay1
  simp only [shapeCast_self]
  exact blockProd_apply _ _ p q

/-- The payload stored at k ≠ 0, at an entry: what the buffer held plus the block product. -/
theorem pay_next_apply (prev : Vec Ideal S2048x2048 .f32) (x : Vec Ideal S2048x1024 .f32) (w : Vec Ideal S2048x1024 .bf16)
    (p q : Fin 2048) :
    k1_pay2 (F := Ideal) prev x w (ix2 p q) = prev (ix2 p q) + ∑ kk : Fin 1024, x (ix2 p kk) * w (ix2 q kk) := by
  unfold k1_pay2
  simp only [shapeCast_self]
  exact congrArg (prev (ix2 p q) + ·) (blockProd_apply _ _ p q)

/-! ## What the body leaves in the output block, at an entry -/

theorem zero_off : (![0, 0] : Fin 2 → Nat) = fun _ => 0 := funext fun a => by fin_cases a <;> rfl

/-- After a point with k = 0 the block holds the block product of the point's two blocks. -/
theorem mmFirst_apply (x : Vec Ideal S2048x1024 .f32) (w : Vec Ideal S2048x1024 .bf16) (p q : Fin 2048) :
    mmFirst (F := Ideal) x w (ix2 p q) = ∑ kk : Fin 1024, x (ix2 p kk) * w (ix2 q kk) := by
  unfold mmFirst
  rw [View.canon_unit_zero zero_off]
  simp only [View.ld_unit_zero (S := S2048x1024) zero_off]
  exact pay_first_apply x w p q

/-- After a point with k ≠ 0 the block holds what it held before plus the block product of the point's two blocks. -/
theorem mmNext_apply (prev : Vec Ideal S2048x2048 .f32) (x : Vec Ideal S2048x1024 .f32) (w : Vec Ideal S2048x1024 .bf16)
    (p q : Fin 2048) :
    mmNext (F := Ideal) prev x w (ix2 p q) = prev (ix2 p q) + ∑ kk : Fin 1024, x (ix2 p kk) * w (ix2 q kk) := by
  unfold mmNext
  rw [View.canon_unit_zero zero_off]
  simp only [View.ld_unit_zero (S := S2048x1024) zero_off, View.ld_unit_zero (S := S2048x2048) zero_off]
  exact pay_next_apply prev x w p q

/-! ## The blocks, read off the arrays -/

/-- The two arrays the region reads, at their literal types: x, and the bf16 weight. -/
abbrev xarr (c : Dev nD) : Vec Ideal S16384x4096 .f32 := V c main_arg0
abbrev warr (c : Dev nD) : Vec Ideal S4096x4096 .bf16 := V c main_call0_v4

/-- Point t = (i, j, k) of the 8 × 2 × 4 grid reads block (i, k) of x, block (j, k) of the weight, and owns block (i, j) of
    the result: i = t / 8, j = (t / 4) % 2, k = t % 4. -/
theorem block_indices : ∀ t : Fin cfg1.N,
    win1_0.index t (0 : Fin 2) = t.val / 8 ∧ win1_0.index t (1 : Fin 2) = t.val % 4
    ∧ win1_1.index t (0 : Fin 2) = t.val / 4 % 2 ∧ win1_1.index t (1 : Fin 2) = t.val % 4
    ∧ win1_2.index t (0 : Fin 2) = t.val / 8 ∧ win1_2.index t (1 : Fin 2) = t.val / 4 % 2 :=
  (by decide +kernel : ∀ t : Fin grid1.N, _)

/-- Entry (p, kk) of the x block at point t is x[(t / 8) · 2048 + p, (t % 4) · 1024 + kk]. -/
theorem xblk_apply (c : Dev nD) (t : Fin cfg1.N) (p : Fin 2048) (kk : Fin 1024) (r : Fin 16384) (k : Fin 4096)
    (hr : r.val = t.val / 8 * 2048 + p.val) (hk : k.val = t.val % 4 * 1024 + kk.val) :
    xblk V c t (ix2 p kk) = xarr V c (ix2 r k) := by
  obtain ⟨e0, e1, -, -, -, -⟩ := block_indices t
  show iblk1 V c 0 t (ix2 p kk) = _
  unfold iblk1
  rw [View.read_apply]
  show V c main_arg0 _ = V c main_arg0 _
  refine congrArg (V c main_arg0) (funext fun a => Fin.ext ?_)
  match a with
  | ⟨0, _⟩ => show win1_0.index t (0 : Fin 2) * 2048 + 1 * p.val = r.val; rw [e0, hr]; omega
  | ⟨1, _⟩ => show win1_0.index t (1 : Fin 2) * 1024 + 1 * kk.val = k.val; rw [e1, hk]; omega

/-- Entry (q, kk) of the weight block at point t is W[((t / 4) % 2) · 2048 + q, (t % 4) · 1024 + kk]. -/
theorem wblk_apply (c : Dev nD) (t : Fin cfg1.N) (q : Fin 2048) (kk : Fin 1024) (s : Fin 4096) (k : Fin 4096)
    (hs : s.val = t.val / 4 % 2 * 2048 + q.val) (hk : k.val = t.val % 4 * 1024 + kk.val) :
    wblk V c t (ix2 q kk) = warr V c (ix2 s k) := by
  obtain ⟨-, -, e0, e1, -, -⟩ := block_indices t
  show iblk1 V c 1 t (ix2 q kk) = _
  unfold iblk1
  rw [View.read_apply]
  show V c main_call0_v4 _ = V c main_call0_v4 _
  refine congrArg (V c main_call0_v4) (funext fun a => Fin.ext ?_)
  match a with
  | ⟨0, _⟩ => show win1_1.index t (0 : Fin 2) * 2048 + 1 * q.val = s.val; rw [e0, hs]; omega
  | ⟨1, _⟩ => show win1_1.index t (1 : Fin 2) * 1024 + 1 * kk.val = k.val; rw [e1, hk]; omega

/-! ## The accumulation over the four runs of the contracted dimension -/

/-- Position kk of run k' among the 4096 contracted positions, in runs of 1024 (k' is read modulo 4, so that the position
    is in range whatever k' is). -/
def runPos (k' : ℕ) (kk : Fin 1024) : Fin 4096 := ⟨k' % 4 * 1024 + kk.val, by have := kk.isLt; omega⟩

/-- What run k' of the contracted positions contributes to entry (r, s) of x · Wᵀ. -/
def runDot (c : Dev nD) (r : Fin 16384) (s : Fin 4096) (k' : ℕ) : EReal :=
  ∑ kk : Fin 1024, xarr V c (ix2 r (runPos k' kk)) * warr V c (ix2 s (runPos k' kk))

/-- The block product at point t, at entry (p, q) of the block, is run t % 4's contribution to the entry of x · Wᵀ the
    block entry sits at. -/
theorem blockProd_eq_runDot (c : Dev nD) (t : Fin cfg1.N) (p q : Fin 2048) (r : Fin 16384) (s : Fin 4096)
    (hr : r.val = t.val / 8 * 2048 + p.val) (hs : s.val = t.val / 4 % 2 * 2048 + q.val) :
    ∑ kk : Fin 1024, xblk V c t (ix2 p kk) * wblk V c t (ix2 q kk) = runDot V c r s (t.val % 4) := by
  unfold runDot
  refine Finset.sum_congr rfl fun kk _ => ?_
  have hpos : (runPos (t.val % 4) kk).val = t.val % 4 * 1024 + kk.val := by
    show t.val % 4 % 4 * 1024 + kk.val = _; omega
  exact congrArg₂ (· * ·) (xblk_apply V c t p kk r (runPos (t.val % 4) kk) hr hpos)
    (wblk_apply V c t q kk s (runPos (t.val % 4) kk) hs hpos)

/-- After point n the output block's entry (p, q) holds the contributions of runs 0 … n % 4 to the entry (r, s) of x · Wᵀ
    it sits at: the first point of a run of four stores its own contribution, every later one adds its own to what the
    point before left (the row and column blocks do not move inside a run of four points). -/
theorem acc_apply (c : Dev nD) : ∀ (n : ℕ) (hn : n < cfg1.N) (p q : Fin 2048) (r : Fin 16384) (s : Fin 4096),
    r.val = n / 8 * 2048 + p.val → s.val = n / 4 % 2 * 2048 + q.val →
    accAt V c n hn (ix2 p q) = ∑ k' ∈ Finset.range (n % 4 + 1), runDot V c r s k'
  | 0, hn, p, q, r, s, hr, hs => by
    rw [accAt_first V c ⟨0, hn⟩ rfl, mmFirst_apply (xblk V c ⟨0, hn⟩) (wblk V c ⟨0, hn⟩) p q,
      blockProd_eq_runDot V c ⟨0, hn⟩ p q r s hr hs]
    exact (Finset.sum_range_one _).symm
  | n + 1, hn, p, q, r, s, hr, hs => by
    by_cases h0 : (n + 1) % 4 = 0
    · rw [accAt_first V c ⟨n + 1, hn⟩ h0, mmFirst_apply (xblk V c ⟨n + 1, hn⟩) (wblk V c ⟨n + 1, hn⟩) p q,
        blockProd_eq_runDot V c ⟨n + 1, hn⟩ p q r s hr hs]
      show runDot V c r s ((n + 1) % 4) = _
      rw [h0, Finset.sum_range_one]
    · have e : ∀ (m : ℕ) (hm : m < cfg1.N), m = n → accAt V c m hm = accAt V c n (Nat.lt_of_succ_lt hn) := by
        intro m hm h; subst h; rfl
      rw [accAt_next V c ⟨n + 1, hn⟩ h0, e _ _ (Nat.add_sub_cancel n 1),
        mmNext_apply (accAt V c n (Nat.lt_of_succ_lt hn)) (xblk V c ⟨n + 1, hn⟩) (wblk V c ⟨n + 1, hn⟩) p q,
        blockProd_eq_runDot V c ⟨n + 1, hn⟩ p q r s hr hs,
        acc_apply c n (Nat.lt_of_succ_lt hn) p q r s (by omega) (by omega)]
      show _ + runDot V c r s ((n + 1) % 4) = _
      rw [show (n + 1) % 4 = n % 4 + 1 by omega]
      exact (Finset.sum_range_succ _ _).symm

/-- The four runs of 1024 make up the 4096 contracted positions. -/
theorem sum_runs (f : Fin 4096 → EReal) :
    ∑ k' ∈ Finset.range 4, ∑ kk : Fin 1024, f (runPos k' kk) = ∑ k : Fin 4096, f k := by
  rw [Finset.sum_range, ← Fintype.sum_prod_type' (fun (k' : Fin 4) (kk : Fin 1024) => f (runPos k'.val kk))]
  exact Fintype.sum_equiv (finProdFinEquiv : Fin 4 × Fin 1024 ≃ Fin 4096) _ _ fun x =>
    congrArg f (Fin.ext (by
      show x.1.val % 4 * 1024 + x.2.val = x.2.val + 1024 * x.1.val
      have := x.1.isLt; omega))

/-! ## What is written back, and where -/

/-- At a point with k = 3 the block written back is the block of x · Wᵀ at the point's row and column blocks. -/
theorem flushed_eq (c : Dev nD) (t : Fin cfg1.N) (hf : (cfg1.win 2).flush t = true) :
    (dat1 (F := Ideal) V c).flushed 2 t
      = ((cfg1.win 2).blk t).view.read (Elt Ideal) (Cert.Spec.xwt (V c main_arg0) (V c main_call0_v4)) := by
  have h3 : t.val % 4 = 3 := (flush1_2 t).mp hf
  have hN : t.val < 64 := lt_of_lt_of_eq t.isLt N_1
  obtain ⟨-, -, -, -, e0, e1⟩ := block_indices t
  show (cfg1.win 2).cut (grid1.coords t) ((dat1 V c).after 2 t) = _
  rw [after1_2]
  funext j
  obtain ⟨p, q, rfl⟩ : ∃ (p : Fin 2048) (q : Fin 2048), j = ix2 p q := ⟨j 0, j 1, eq_ix2 j⟩
  rw [View.read_apply]
  have hr : t.val / 8 * 2048 + p.val < 16384 := by have := p.isLt; omega
  have hs : t.val / 4 % 2 * 2048 + q.val < 4096 := by have := q.isLt; omega
  have hemb : ((cfg1.win 2).blk t).view.emb (ix2 p q)
      = (ix2 (⟨t.val / 8 * 2048 + p.val, hr⟩ : Fin 16384) (⟨t.val / 4 % 2 * 2048 + q.val, hs⟩ : Fin 4096) : S16384x4096.Idx) :=
    funext fun a => Fin.ext (by
      match a with
      | ⟨0, _⟩ => show win1_2.index t (0 : Fin 2) * 2048 + 1 * p.val = t.val / 8 * 2048 + p.val; rw [e0]; omega
      | ⟨1, _⟩ => show win1_2.index t (1 : Fin 2) * 2048 + 1 * q.val = t.val / 4 % 2 * 2048 + q.val; rw [e1]; omega)
  show accAt V c t.val t.isLt (ix2 p q)
    = Cert.Spec.xwt (xarr V c) (warr V c) (((cfg1.win 2).blk t).view.emb (ix2 p q))
  rw [hemb, acc_apply V c t.val t.isLt p q ⟨_, hr⟩ ⟨_, hs⟩ rfl rfl, h3]
  unfold Cert.Spec.xwt runDot
  exact sum_runs fun k => xarr V c (ix2 ⟨_, hr⟩ k) * warr V c (ix2 ⟨_, hs⟩ k)

/-- Every entry of the result lies in the block of a point with k = 3: entry (a, b) in that of the point with row block
    a / 2048 and column block b / 2048. -/
theorem covered (i : S16384x4096.Idx) :
    ∃ t : Fin cfg1.N, (cfg1.win 2).flush t = true ∧ i ∈ ((cfg1.win 2).blk t).view.set := by
  have h0 : (i 0).val < 16384 := (i 0).isLt
  have h1 : (i 1).val < 4096 := (i 1).isLt
  have ht : ((i 0).val / 2048 * 2 + (i 1).val / 2048) * 4 + 3 < cfg1.N := by rw [show cfg1.N = 64 from N_1]; omega
  obtain ⟨-, -, -, -, e0, e1⟩ := block_indices ⟨_, ht⟩
  refine ⟨⟨_, ht⟩, (flush1_2 _).mpr (by show (((i 0).val / 2048 * 2 + (i 1).val / 2048) * 4 + 3) % 4 = 3; omega), ?_⟩
  show i ∈ ((View.whole main_v0).slice (win1_2.rect ⟨_, ht⟩)).set
  rw [View.set_slice_whole, Rect.mem_set_unit]
  intro a
  match a with
  | ⟨0, _⟩ =>
    show win1_2.index ⟨_, ht⟩ (0 : Fin 2) * 2048 ≤ (i 0).val ∧ (i 0).val < win1_2.index ⟨_, ht⟩ (0 : Fin 2) * 2048 + 2048
    rw [e0]
    show (((i 0).val / 2048 * 2 + (i 1).val / 2048) * 4 + 3) / 8 * 2048 ≤ (i 0).val
      ∧ (i 0).val < (((i 0).val / 2048 * 2 + (i 1).val / 2048) * 4 + 3) / 8 * 2048 + 2048
    omega
  | ⟨1, _⟩ =>
    show win1_2.index ⟨_, ht⟩ (1 : Fin 2) * 2048 ≤ (i 1).val ∧ (i 1).val < win1_2.index ⟨_, ht⟩ (1 : Fin 2) * 2048 + 2048
    rw [e1]
    show (((i 0).val / 2048 * 2 + (i 1).val / 2048) * 4 + 3) / 4 % 2 * 2048 ≤ (i 1).val
      ∧ (i 1).val < (((i 0).val / 2048 * 2 + (i 1).val / 2048) * 4 + 3) / 4 % 2 * 2048 + 2048
    omega

/-- After the matmul region's write-backs, the result array is x times the transpose of the bf16 weight the region was
    entered with. -/
theorem mm_array (c : Dev nD) :
    (dat1 (F := Ideal) V c).arrAt 2 cfg1.N = Cert.Spec.xwt (V c main_arg0) (V c main_call0_v4) :=
  (dat1 (F := Ideal) V c).arrAt_eq_of_cover 2 (Cert.Spec.xwt (V c main_arg0) (V c main_call0_v4))
    (flushed_eq V c) covered

end Cert.KernelIdeal.MmValue

end
-- ==== Proof.HostValue.lean ====
/-
  The host stretch before the regions: slot 0 of each LoRA stack, sliced out and reshaped to a matrix.
-/
import proofs.«155099_g11295763988856_week1_w4_63_23_alg».proof.Proof.Gen.KernelIdeal.Launch
import proofs.«155099_g11295763988856_week1_w4_63_23_alg».proof.Proof.Gen.KernelIdeal.Regions
import proofs.«155099_g11295763988856_week1_w4_63_23_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Slab 0 of an 8 × 16 × 4096 stack, sliced out and its unit axis dropped, is entry by entry stack[0, r, k]: the
    reshape keeps the row-major position, (0 · 16 + r) · 4096 + k = r · 4096 + k, and the slice starts at the origin. -/
theorem slab0_a (la : S8x16x4096.Idx → EReal) :
    shapeCast S16x4096 (extractStridedSlice S1x16x4096 ![0, 0, 0] la slices_S8x16x4096_S1x16x4096_0_0_0) shapeCasts_S1x16x4096_S16x4096
      = Cert.Spec.a0 la := by
  funext i
  obtain ⟨r, k, rfl⟩ : ∃ (r : Fin 16) (k : Fin 4096), i = ix2 r k := ⟨i 0, i 1, eq_ix2 i⟩
  rw [shapeCast_apply _ shapeCasts_S1x16x4096_S16x4096 (ix2 r k) (ix3 (0 : Fin 1) r k)
    (by rewrite [Shape.rowMajor_val_three, Shape.rowMajor_val_two]
        show (0 * 16 + r.val) * 4096 + k.val = r.val * 4096 + k.val; omega)]
  exact extractStridedSlice_apply ![0, 0, 0] la slices_S8x16x4096_S1x16x4096_0_0_0 (ix3 (0 : Fin 1) r k) (ix3 (0 : Fin 8) r k)
    (fun a => match a with
      | ⟨0, _⟩ => by show (0 : Nat) = 0 + 0; omega
      | ⟨1, _⟩ => by show r.val = 0 + r.val; omega
      | ⟨2, _⟩ => by show k.val = 0 + k.val; omega)

/-- The same for the 8 × 4096 × 16 stack: (0 · 4096 + j) · 16 + r = j · 16 + r. -/
theorem slab0_b (lb : S8x4096x16.Idx → EReal) :
    shapeCast S4096x16 (extractStridedSlice S1x4096x16 ![0, 0, 0] lb slices_S8x4096x16_S1x4096x16_0_0_0) shapeCasts_S1x4096x16_S4096x16
      = Cert.Spec.b0 lb := by
  funext i
  obtain ⟨j, r, rfl⟩ : ∃ (j : Fin 4096) (r : Fin 16), i = ix2 j r := ⟨i 0, i 1, eq_ix2 i⟩
  rw [shapeCast_apply _ shapeCasts_S1x4096x16_S4096x16 (ix2 j r) (ix3 (0 : Fin 1) j r)
    (by rewrite [Shape.rowMajor_val_three, Shape.rowMajor_val_two]
        show (0 * 4096 + j.val) * 16 + r.val = j.val * 16 + r.val; omega)]
  exact extractStridedSlice_apply ![0, 0, 0] lb slices_S8x4096x16_S1x4096x16_0_0_0 (ix3 (0 : Fin 1) j r) (ix3 (0 : Fin 8) j r)
    (fun a => match a with
      | ⟨0, _⟩ => by show (0 : Nat) = 0 + 0; omega
      | ⟨1, _⟩ => by show j.val = 0 + j.val; omega
      | ⟨2, _⟩ => by show r.val = 0 + r.val; omega)

variable (m : (ℓ : Loc nD τ sig) → Buf (Elt Ideal) ℓ)

/-- After the host stretch the buffer of A0 holds slot 0 of the first stack as launched. -/
theorem host_a0 (c : Dev nD) :
    V1 m c main_call0_v1 = Cert.Spec.a0 (m ((c : Thread nD τ).loc main_arg2)) := by
  have e : (V1 m c main_call0_v1 : S16x4096.Idx → EReal)
      = shapeCast S16x4096 (extractStridedSlice S1x16x4096 ![0, 0, 0] (m ((c : Thread nD τ).loc main_arg2)) slices_S8x16x4096_S1x16x4096_0_0_0) shapeCasts_S1x16x4096_S16x4096 := by
    dsimp only [V1, V0, hostOps0]; after_results; rfl
  exact e.trans (slab0_a _)

/-- After the host stretch the buffer of B0 holds slot 0 of the second stack as launched. -/
theorem host_b0 (c : Dev nD) :
    V1 m c main_call0_v3 = Cert.Spec.b0 (m ((c : Thread nD τ).loc main_arg3)) := by
  have e : (V1 m c main_call0_v3 : S4096x16.Idx → EReal)
      = shapeCast S4096x16 (extractStridedSlice S1x4096x16 ![0, 0, 0] (m ((c : Thread nD τ).loc main_arg3)) slices_S8x4096x16_S1x4096x16_0_0_0) shapeCasts_S1x4096x16_S4096x16 := by
    dsimp only [V1, V0, hostOps0]; after_results; rfl
  exact e.trans (slab0_b _)

end Cert.KernelIdeal.HostValue

end
-- ==== Proof.RefValue.lean ====
/-
  The reference's result, index by index: x · Wᵀ plus 1 times (x · A0ᵀ) · B0ᵀ, each product a sum over its contracted
  axis, the transposes and the slices of the stacks read through.
-/
import proofs.«155099_g11295763988856_week1_w4_63_23_alg».proof.Proof.Gen.ReferenceIdeal.Read
import proofs.«155099_g11295763988856_week1_w4_63_23_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-- The transposed base weight: entry (k, q) of Wᵀ is entry (q, k) of W. -/
theorem wT_at (w : (⟨S4096x4096, .f32⟩ : BufTy).Contents (Elt Ideal)) (k : Fin 4096) (q : Fin 4096) :
    val_main_v0 (F := Ideal) w (ix2 k q) = w (ix2 q k) := by
  rw [val_main_v0_apply]
  exact congrArg w (funext fun a => Fin.ext (by match a with | ⟨0, _⟩ => rfl | ⟨1, _⟩ => rfl))

/-- The base product: entry (p, q) of x · Wᵀ is Σ_k x[p, k] · W[q, k]. -/
theorem base_at (x : (⟨S16384x4096, .f32⟩ : BufTy).Contents (Elt Ideal)) (w : (⟨S4096x4096, .f32⟩ : BufTy).Contents (Elt Ideal))
    (p : Fin 16384) (q : Fin 4096) :
    val_main_v1 (F := Ideal) x w (ix2 p q) = ∑ k : Fin 4096, x (ix2 p k) * w (ix2 q k) := by
  rw [val_main_v1_apply]
  refine Finset.sum_congr rfl fun k _ => ?_
  have el : lidx_main_v1 (ix2 p q) k = ix2 p k :=
    funext fun a => Fin.ext (by match a with | ⟨0, _⟩ => rfl | ⟨1, _⟩ => rfl)
  have er : ridx_main_v1 (ix2 p q) k = ix2 k q :=
    funext fun a => Fin.ext (by match a with | ⟨0, _⟩ => rfl | ⟨1, _⟩ => rfl)
  rw [el, er, wT_at]

/-- Slot 0 of the first stack as a 16 × 4096 matrix: the slice keeps slab 0, and the reshape drops the unit axis. -/
theorem a0_at (la : (⟨S8x16x4096, .f32⟩ : BufTy).Contents (Elt Ideal)) (r : Fin 16) (k : Fin 4096) :
    val_main_v3 (F := Ideal) la (ix2 r k) = la (ix3 (0 : Fin 8) r k) := by
  rw [val_main_v3_apply, val_main_v2_apply]
  refine congrArg la (funext fun a => Fin.ext ?_)
  have hr : r.val < 16 := r.isLt
  have hk : k.val < 4096 := k.isLt
  match a with
  | ⟨0, _⟩ => rfl
  | ⟨1, _⟩ => show (r.val * 4096 + k.val) / 4096 % 16 = r.val; omega
  | ⟨2, _⟩ => show (r.val * 4096 + k.val) % 4096 = k.val; omega

/-- Its transpose: entry (k, r) of A0ᵀ is lora_A[0, r, k]. -/
theorem a0T_at (la : (⟨S8x16x4096, .f32⟩ : BufTy).Contents (Elt Ideal)) (k : Fin 4096) (r : Fin 16) :
    val_main_v6 (F := Ideal) la (ix2 k r) = la (ix3 (0 : Fin 8) r k) := by
  rw [val_main_v6_apply]
  have e : idx_main_v6 (ix2 k r) = ix2 r k :=
    funext fun a => Fin.ext (by match a with | ⟨0, _⟩ => rfl | ⟨1, _⟩ => rfl)
  rw [e, a0_at]

/-- The first low-rank product: entry (p, r) of x · A0ᵀ is Σ_k x[p, k] · lora_A[0, r, k]. -/
theorem down_at (x : (⟨S16384x4096, .f32⟩ : BufTy).Contents (Elt Ideal)) (la : (⟨S8x16x4096, .f32⟩ : BufTy).Contents (Elt Ideal))
    (p : Fin 16384) (r : Fin 16) :
    val_main_v7 (F := Ideal) x la (ix2 p r) = ∑ k : Fin 4096, x (ix2 p k) * la (ix3 (0 : Fin 8) r k) := by
  rw [val_main_v7_apply]
  refine Finset.sum_congr rfl fun k _ => ?_
  have el : lidx_main_v7 (ix2 p r) k = ix2 p k :=
    funext fun a => Fin.ext (by match a with | ⟨0, _⟩ => rfl | ⟨1, _⟩ => rfl)
  have er : ridx_main_v7 (ix2 p r) k = ix2 k r :=
    funext fun a => Fin.ext (by match a with | ⟨0, _⟩ => rfl | ⟨1, _⟩ => rfl)
  rw [el, er, a0T_at]

/-- Slot 0 of the second stack as a 4096 × 16 matrix. -/
theorem b0_at (lb : (⟨S8x4096x16, .f32⟩ : BufTy).Contents (Elt Ideal)) (q : Fin 4096) (r : Fin 16) :
    val_main_v5 (F := Ideal) lb (ix2 q r) = lb (ix3 (0 : Fin 8) q r) := by
  rw [val_main_v5_apply, val_main_v4_apply]
  refine congrArg lb (funext fun a => Fin.ext ?_)
  have hq : q.val < 4096 := q.isLt
  have hr : r.val < 16 := r.isLt
  match a with
  | ⟨0, _⟩ => rfl
  | ⟨1, _⟩ => show (q.val * 16 + r.val) / 16 % 4096 = q.val; omega
  | ⟨2, _⟩ => show (q.val * 16 + r.val) % 16 = r.val; omega

/-- Its transpose: entry (r, q) of B0ᵀ is lora_B[0, q, r]. -/
theorem b0T_at (lb : (⟨S8x4096x16, .f32⟩ : BufTy).Contents (Elt Ideal)) (r : Fin 16) (q : Fin 4096) :
    val_main_v8 (F := Ideal) lb (ix2 r q) = lb (ix3 (0 : Fin 8) q r) := by
  rw [val_main_v8_apply]
  have e : idx_main_v8 (ix2 r q) = ix2 q r :=
    funext fun a => Fin.ext (by match a with | ⟨0, _⟩ => rfl | ⟨1, _⟩ => rfl)
  rw [e, b0_at]

/-- The second low-rank product: entry (p, q) of (x · A0ᵀ) · B0ᵀ is Σ_r (Σ_k x[p, k] · lora_A[0, r, k]) · lora_B[0, q, r]. -/
theorem up_at (x : (⟨S16384x4096, .f32⟩ : BufTy).Contents (Elt Ideal)) (la : (⟨S8x16x4096, .f32⟩ : BufTy).Contents (Elt Ideal))
    (lb : (⟨S8x4096x16, .f32⟩ : BufTy).Contents (Elt Ideal)) (p : Fin 16384) (q : Fin 4096) :
    val_main_v9 (F := Ideal) x la lb (ix2 p q)
      = ∑ r : Fin 16, (∑ k : Fin 4096, x (ix2 p k) * la (ix3 (0 : Fin 8) r k)) * lb (ix3 (0 : Fin 8) q r) := by
  rw [val_main_v9_apply]
  refine Finset.sum_congr rfl fun r _ => ?_
  have el : lidx_main_v9 (ix2 p q) r = ix2 p r :=
    funext fun a => Fin.ext (by match a with | ⟨0, _⟩ => rfl | ⟨1, _⟩ => rfl)
  have er : ridx_main_v9 (ix2 p q) r = ix2 r q :=
    funext fun a => Fin.ext (by match a with | ⟨0, _⟩ => rfl | ⟨1, _⟩ => rfl)
  rw [el, er, down_at, b0T_at]

/-- The reference's last stage is the two-product formula of the specification. -/
theorem ref_eq (x : (⟨S16384x4096, .f32⟩ : BufTy).Contents (Elt Ideal)) (w : (⟨S4096x4096, .f32⟩ : BufTy).Contents (Elt Ideal))
    (la : (⟨S8x16x4096, .f32⟩ : BufTy).Contents (Elt Ideal)) (lb : (⟨S8x4096x16, .f32⟩ : BufTy).Contents (Elt Ideal)) :
    val_main_v12 (F := Ideal) x w la lb = Cert.Spec.refOut x w la lb := by
  funext i
  obtain ⟨p, q, rfl⟩ : ∃ (p : Fin 16384) (q : Fin 4096), i = ix2 p q := ⟨i 0, i 1, eq_ix2 i⟩
  rw [val_main_v12_apply, val_main_v11_apply, val_main_v10_apply, val_main_cst_apply, base_at, up_at,
    Ideal.addf_def, Ideal.mulf_def, Ideal.ofBits_def]
  rfl

end Cert.ReferenceIdeal.RefValue

end
-- ==== Proof.Law.lean ====
/-
  The one law of the claim: with real entries throughout, folding the rank-16 update into the weight before the product
  gives what the two separate products give.

    Σ_k x[i,k] · (W[j,k] + 1 · Σ_r B0[j,r] · A0[r,k])  =  Σ_k x[i,k] · W[j,k]  +  1 · Σ_r (Σ_k x[i,k] · A0[r,k]) · B0[j,r]

  Over the reals: distribute x[i,k] over the inner sum, split the sum over k, exchange the sums over k and r, and
  reorder each product. Each step is a law of the real numbers that fails at an infinity, which is why every entry is
  first replaced by the real number it is.
-/
import proofs.«155099_g11295763988856_week1_w4_63_23_alg».proof.Proof.Spec

noncomputable section

open scoped BigOperators

namespace Cert.Spec

open Idealize.ShloMosaic Idealize.ShloMosaic.ValueIdx

/-- The embedding of the reals into the extended reals goes through a finite sum: no term is infinite, so nothing
    can go wrong. -/
theorem coe_sum_real {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The fold identity among real numbers, for one row x of the input and one row (w, b) of the weight and of the
    second low-rank factor: x · (w + b·A) = x · w + (x·Aᵀ) · b. Distribute, split, exchange the two sums, reorder. -/
theorem fold_row_real {K R : Type} [Fintype K] [Fintype R] (x w : K → ℝ) (b : R → ℝ) (a : R → K → ℝ) :
    ∑ k, x k * (w k + ∑ r, b r * a r k) = (∑ k, x k * w k) + ∑ r, (∑ k, x k * a r k) * b r := by
  simp only [mul_add, Finset.sum_add_distrib, Finset.mul_sum, Finset.sum_mul]
  congr 1
  rw [Finset.sum_comm]
  refine Finset.sum_congr rfl fun r _ => Finset.sum_congr rfl fun k _ => ?_
  ring

/-- The same identity read in the extended reals, every entry being the image of a real number, with the scaling
    factor 1 in front of the low-rank term on both sides. -/
theorem fold_row {K R : Type} [Fintype K] [Fintype R] (x w : K → ℝ) (b : R → ℝ) (a : R → K → ℝ) :
    ∑ k, (x k : EReal) * ((w k : EReal) + 1 * ∑ r, (b r : EReal) * (a r k : EReal))
      = (∑ k, (x k : EReal) * (w k : EReal))
        + 1 * ∑ r, (∑ k, (x k : EReal) * (a r k : EReal)) * (b r : EReal) := by
  simp only [one_mul, ← EReal.coe_mul, ← coe_sum_real, ← EReal.coe_add]
  exact congrArg _ (fold_row_real x w b a)

/-- THE LAW. With real entries throughout, folding the low-rank update into the weight changes nothing. -/
theorem law (X : SX.Idx → EReal) (W : SW.Idx → EReal) (la : SA.Idx → EReal) (lb : SB.Idx → EReal)
    (hX : AllReal X) (hW : AllReal W) (hla : AllReal la) (hlb : AllReal lb) :
    kernelOut X W la lb = refOut X W la lb := by
  choose xr hxr using hX
  choose wr hwr using hW
  choose ar har using hla
  choose br hbr using hlb
  funext i
  obtain ⟨p, q, rfl⟩ : ∃ (p : Fin 16384) (q : Fin 4096), i = ix2 p q := ⟨i 0, i 1, eq_ix2 i⟩
  show (∑ k : Fin 4096, X (ix2 p k)
          * (W (ix2 q k) + one * ∑ r : Fin 16, lb (ix3 (0 : Fin 8) q r) * la (ix3 (0 : Fin 8) r k)))
      = (∑ k : Fin 4096, X (ix2 p k) * W (ix2 q k))
        + one * ∑ r : Fin 16, (∑ k : Fin 4096, X (ix2 p k) * la (ix3 (0 : Fin 8) r k)) * lb (ix3 (0 : Fin 8) q r)
  simp only [hxr, hwr, har, hbr, one_eq]
  exact fold_row (fun k : Fin 4096 => xr (ix2 p k)) (fun k : Fin 4096 => wr (ix2 q k))
    (fun r : Fin 16 => br (ix3 (0 : Fin 8) q r)) (fun (r : Fin 16) (k : Fin 4096) => ar (ix3 (0 : Fin 8) r k))

end Cert.Spec

end
-- ==== Proof.Finite.lean ====
/-
  From the precondition to numbers: "every float input is finite" says each entry of each argument is a real number.
-/
import proofs.«155099_g11295763988856_week1_w4_63_23_alg».proof.Defs
import proofs.«155099_g11295763988856_week1_w4_63_23_alg».proof.Proof.Gen.Pre_finite_inputs
import proofs.«155099_g11295763988856_week1_w4_63_23_alg».proof.Proof.Spec
import Idealize.ShloMosaic.Lib.ReduceAll
import Idealize.ShloMosaic.Lib.ValueIdx

noncomputable section

namespace Cert.FiniteInputs

open Idealize.ShloMosaic Idealize.ShloMosaic.ValueIdx Idealize.SL.Sem

/-- The float word 0x7F800000 is +∞: sign 0, exponent all ones, fraction zero. -/
theorem inf_word : Ideal.ofBits .f32 0x7F800000#32 = (⊤ : EReal) := by
  simp [Ideal.ofBits, Ideal.ieee]

/-- An extended real whose absolute value max(x, −x) is strictly below +∞ is a real number: at −∞ and at +∞ the
    absolute value is +∞ itself, and every other extended real is a real. -/
theorem real_of_abs_lt_inf (x : EReal)
    (h : Ideal.cmp .olt (max x (-x)) (Ideal.ofBits .f32 0x7F800000#32) = 1#1) : ∃ r : ℝ, x = (r : EReal) := by
  rw [inf_word] at h
  have hlt : max x (-x) < ⊤ := by
    by_contra hn
    simp [Ideal.cmp, hn] at h
  induction x using EReal.rec with
  | bot => simp at hlt
  | top => simp at hlt
  | coe r => exact ⟨r, rfl⟩

/-- The scalar shape has one index. -/
instance : Subsingleton Cert.Pre_finite_inputs.S_.Idx := ⟨fun a b => funext fun d => d.elim0⟩

/-- One conjunct of the predicate, for an array of any shape: "|x| < +∞ everywhere" says every entry of x is a
    real number. The conjunction over all entries being 1, each entry's comparison is 1. -/
theorem allReal_of_all {S : Shape} {axes : List (Fin S.rank)}
    (hb : Cert.Pre_finite_inputs.S_.BroadcastsInDim S (![] : Fin 0 → Fin S.rank))
    (hr : S.ReducesTo axes Cert.Pre_finite_inputs.S_) (hu : 0 < Cert.Pre_finite_inputs.S_.numel)
    (x : FVec Ideal S .f32)
    (e : Host.reduce IntOp.andi
          (cmpf .olt (Host.absf x)
            (broadcastInDim S ![] hb (constant (F := Ideal) Cert.Pre_finite_inputs.S_ .f32 0x7F800000#32)))
          (constantI Cert.Pre_finite_inputs.S_ 1 1#1) hr hu ix0 = 1#1) :
    Cert.Spec.AllReal x := by
  intro i
  exact real_of_abs_lt_inf (x i) (Host.reduce_andi_all _ _ hr hu ix0 e i)

/-- Under the precondition all four arguments of the idealized kernel hold real numbers only, on every core. -/
theorem all_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.Spec.AllReal (m ((c.tc : Thread Cert.KernelIdeal.nD Cert.KernelIdeal.τ).loc Cert.KernelIdeal.main_arg0))
    ∧ Cert.Spec.AllReal (m ((c.tc : Thread Cert.KernelIdeal.nD Cert.KernelIdeal.τ).loc Cert.KernelIdeal.main_arg1))
    ∧ Cert.Spec.AllReal (m ((c.tc : Thread Cert.KernelIdeal.nD Cert.KernelIdeal.τ).loc Cert.KernelIdeal.main_arg2))
    ∧ Cert.Spec.AllReal (m ((c.tc : Thread Cert.KernelIdeal.nD Cert.KernelIdeal.τ).loc Cert.KernelIdeal.main_arg3)) := by
  -- the predicate's one value, at the scalar shape's one index, is the conjunction of the four "all finite" bits
  have h0 := congrFun (h c) ValueIdx.ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  have r0 := allReal_of_all _ _ _ _ e0
  have r1 := allReal_of_all _ _ _ _ e1
  have r2 := allReal_of_all _ _ _ _ e2
  have r3 := allReal_of_all _ _ _ _ e3
  exact ⟨r0, r1, r2, r3⟩

end Cert.FiniteInputs

end
-- ==== Proof.lean ====
/-
  A LoRA row-parallel linear layer, every token on slot 0:  out = x · Wᵀ + s · (x · A0ᵀ) · B0ᵀ  with s = 16 / 16 = 1.

  The kernel folds the rank-16 update into the weight and multiplies once: a first region forms
  W_eff = W + 1 · (B0 · A0) block by block (stored as bf16, which over the extended reals is no change), a second region
  computes x · W_effᵀ, accumulating each 2048 × 2048 output block over four 1024-wide blocks of the contracted axis.
  The reference multiplies x by Wᵀ, then by A0ᵀ and by B0ᵀ, scales by 1 and adds.

  The two results are one function of the four arguments once every entry is a real number: distributing x over the sum
  inside W_eff and exchanging the sums over the contracted axis and over the rank are laws of the reals that fail at the
  infinities, so the precondition "every float input is finite" is used, and used only there.

  The frames. Each kernel program is its host stretch (slot 0 of each stack cut out) followed by the two regions; from
  any memory with zero counters every weakly fair execution ends with every unscoped buffer at contents computed from
  the launch memory, and the four arguments are among the buffers nothing writes. That holds at any float instance, so
  it serves the program as printed (word level) and its idealization alike. The reference has no kernel: its frame is
  its run with the result dropped. The idealization rewrote no operation, so there is nothing for it to preserve.
-/
import proofs.«155099_g11295763988856_week1_w4_63_23_alg».proof.Defs
import proofs.«155099_g11295763988856_week1_w4_63_23_alg».proof.Proof.Gen.Kernel
import proofs.«155099_g11295763988856_week1_w4_63_23_alg».proof.Proof.Gen.KernelIdeal
import proofs.«155099_g11295763988856_week1_w4_63_23_alg».proof.Proof.Gen.ReferenceIdeal
import proofs.«155099_g11295763988856_week1_w4_63_23_alg».proof.Proof.Gen.ReferenceIdeal.Run
import proofs.«155099_g11295763988856_week1_w4_63_23_alg».proof.Proof.Gen.ReferenceIdeal.Read
import proofs.«155099_g11295763988856_week1_w4_63_23_alg».proof.Proof.Gen.Pre_finite_inputs
import proofs.«155099_g11295763988856_week1_w4_63_23_alg».proof.Proof.KRun
import proofs.«155099_g11295763988856_week1_w4_63_23_alg».proof.Proof.Run
import proofs.«155099_g11295763988856_week1_w4_63_23_alg».proof.Proof.FoldValue
import proofs.«155099_g11295763988856_week1_w4_63_23_alg».proof.Proof.MmValue
import proofs.«155099_g11295763988856_week1_w4_63_23_alg».proof.Proof.HostValue
import proofs.«155099_g11295763988856_week1_w4_63_23_alg».proof.Proof.RefValue
import proofs.«155099_g11295763988856_week1_w4_63_23_alg».proof.Proof.Law
import proofs.«155099_g11295763988856_week1_w4_63_23_alg».proof.Proof.Finite

noncomputable section

namespace Cert.Proof

open Idealize.ShloMosaic Idealize.ShloMosaic.TcCoe Idealize.SL.Sem

/-! ## The frames -/

theorem frame_k : Cert.frame_Kernel := fun m ρ _ => Cert.Kernel.Run.frame (F := Bits) m ρ
theorem frame_ki : Cert.frame_KernelIdeal := fun m ρ _ => Cert.KernelIdeal.Run.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The idealization is the program's own text read over the extended reals: no rewrite, nothing to preserve. -/
theorem preserves : Cert.preserves_Kernel_KernelIdeal := trivial

/-! ## The kernel's result -/

/-- What the matmul region's write-backs leave in the result array, as a function of the launch memory: x times the
    transpose of what the fold region left, which is the folded weight of W and slot 0 of the two stacks. -/
theorem kernel_value (m : (ℓ : Loc Cert.KernelIdeal.nD Cert.KernelIdeal.τ Cert.KernelIdeal.sig) → Buf (Elt Ideal) ℓ)
    (c : Dev Cert.KernelIdeal.nD) :
    (Cert.KernelIdeal.Mm.dat1 (F := Ideal) (Cert.KernelIdeal.Run.In1 m) c).arrAt 2 Cert.KernelIdeal.cfg1.N
      = Cert.Spec.kernelOut
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  rw [Cert.KernelIdeal.MmValue.mm_array, Cert.KernelIdeal.Run.In1_main_arg0, Cert.KernelIdeal.Run.In1_main_call0_v4,
    Cert.KernelIdeal.FoldValue.fold_array, Cert.KernelIdeal.Run.In0_main_arg1,
    show Cert.KernelIdeal.Run.In0 m c Cert.KernelIdeal.main_call0_v3 = _ from Cert.KernelIdeal.HostValue.host_b0 m c,
    show Cert.KernelIdeal.Run.In0 m c Cert.KernelIdeal.main_call0_v1 = _ from Cert.KernelIdeal.HostValue.host_a0 m c]
  rfl

/-! ## The two programs agree -/

/-- Both programs, run from memories that agree on the arguments, end with the result `kernelOut` of the arguments: the
    kernel by its run and `kernel_value`; the reference by its run, read index by index, and the law, which is where the
    entries must be real numbers. -/
theorem algebraic : Cert.algebraic_KernelIdeal_ReferenceIdeal := by
  intro m ρ m' ρ' hpre hagree
  refine ⟨fun c => Cert.Spec.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c => ⟨(h c).1.trans (kernel_value m c), (h c).2⟩)
      (Cert.KernelIdeal.Run.run_value (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2]
    obtain ⟨h0, h1, h2, h3⟩ := Cert.FiniteInputs.all_real m hpre c
    exact (Cert.ReferenceIdeal.Read.val_main_v12_eq _ _ _ _).trans
      ((Cert.ReferenceIdeal.RefValue.ref_eq _ _ _ _).trans (Cert.Spec.law _ _ _ _ h0 h1 h2 h3).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
